-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S16384x1 : Shape := ⟨2, ![16384, 1]⟩
abbrev S1024x3 : Shape := ⟨2, ![1024, 3]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S16384 : Shape := ⟨1, ![16384]⟩
abbrev S32768 : Shape := ⟨1, ![32768]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S32768, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x3, .f32⟩
  | .local _ .vmem, ⟨8, _⟩ => ⟨S1024x3, .f32⟩
  | .local _ .vmem, ⟨9, _⟩ => ⟨S1024x3, .f32⟩
  | .local _ .vmem, ⟨10, _⟩ => ⟨S1024x3, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_10 : BitVec 32 := 0#32
  let v56 : BitVec 1 := Scalar.cmpi .ne v55 c0_i32_10
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_10 : BitVec 32 := 0#32
  let v56 : BitVec 1 := Scalar.cmpi .ne v55 c0_i32_10
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  shapeCasts_S1024x1_S1024 : S1024x1.ShapeCasts S1024
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S16384x1_S16384 : S16384x1.ShapeCasts S16384
  concatenates_S16384_S16384_S32768_d0 : Shape.Concatenates [S16384, S16384] S32768 0
  reducesTo_S32768_S_d0 : S32768.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S16384x3.size a
  hwx1_0 : ∀ i : grid1.Coords, EltTy.bits .f32 = 32 ∨ (Rect.block (s := S16384x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S16384x3.size a
  hwx1_1 : ∀ i : grid1.Coords, EltTy.bits .f32 = 32 ∨ (Rect.block (s := S16384x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)

variable [Facts₀]

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S32768 : Shape := ⟨1, ![32768]⟩

abbrev nBuf : Space → Nat
  | .hbm => 31
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S32768, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  concatenates_S16384_S16384_S32768_d0 : Shape.Concatenates [S16384, S16384] S32768 0
  reducesTo_S32768_S_d0 : S32768.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.K.Shared0.lean ====
/- Region 0 (a nearest-row sweep of the region's first operand against its second operand): what its three control cases share.
   The region's arrays are read at a parameter V, the contents of the core's buffers when the region is entered.
   A grid point t = 16·i + j handles rows 1024·i … of the first operand against rows 1024·j … of the second;
   the running minimum lives in a scratch column that is reset at j = 0 and copied to the output block at j = 15. -/
import proofs.«144192_j36369783063040_1_alg».proof.Proof.Gen.Kernel.Launch
import proofs.«144192_j36369783063040_1_alg».proof.Proof.Gen.Kernel.Skeleton
import proofs.«144192_j36369783063040_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The primary rows' staging buffer holds their block at every point, whether the point fetched it or not
    (between fetches the block index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The other set's staging buffer holds its block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first column tile" (j = 0): the scratch column is reset to +∞. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column tile" (j = 15): the scratch column is copied to the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the output block is not stored into and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column carrying the running minimum. -/
abbrev scM0_0 : Memref sig .tc .vmem S1024x1 .f32 := Memref.whole cc0_scratch0
abbrev VS0_0 : View sig .tc .vmem S1024x1 .f32 := scM0_0.view

/-- The scoped buffers outside region 0's staging buffers, with the scratch column singled out as a memref. -/
abbrev restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped buffers outside the region's staging buffers, listed with the scratch column first. -/
theorem scopedRestS0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restOther0 c) :=
  Pipeline.scopedRest_eq_of_list spec0 c [cc0_scratch0, cc1_stg0_0, cc1_stg0_1, cc1_stg1_0, cc1_stg1_1, cc1_stg2_0, cc1_stg2_1, cc1_scratch0] (by decide) (by decide)

theorem PhiA0_eq (c : Dev nD) :
    (Pipeline.ΦA spec0 c : sProp 𝕄)
      = iprop(iprop((∃ d, owns (c : Thread nD τ) scM0_0 fullShare d) ∗ restOther0 c) ∗ (∃ r, prngReg c r)) := by
  unfold Pipeline.ΦA; rw [scopedRestS0_eq]; simp only [scM0_0, owns_whole]; try rfl

end Cert.Kernel.Gen

end
-- ==== Proof.K.Runs0.lean ====
/- Region 0: the kernel body run whole, once per control case. In each case the body leaves the two input blocks as
   they were; what it stores into the scratch column (and, at the last column tile, into the output block) is recorded
   as the list of pieces the run itself finds. -/
import proofs.«144192_j36369783063040_1_alg».proof.Proof.K.Shared0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First column tile (j = 0, not the last): the scratch column is entered at anything, reset to +∞ and then updated with
    this tile's row minima; the output block is not touched. -/
noncomputable def kernelRun0_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle column tile (0 < j < 15): the scratch column is entered at what the point before left and updated with this
    tile's row minima; the output block is not touched. -/
noncomputable def kernelRun0_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last column tile (j = 15): the scratch column is entered at what the point before left, updated with this tile's
    row minima, and then copied whole into the output block (entered at anything). -/
noncomputable def kernelRun0_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.Frame0.lean ====
/- Region 0: what the scratch column and the output block hold after each grid point, the region's invariant, its proof
   data and the body obligation. After point n the scratch column holds the running minimum over the column tiles
   handled so far in n's row of tiles: reset-then-update at the first tile of a row, update of the previous contents otherwise.
   The output block is written (a copy of the scratch column) only at the last tile of a row, which is also the only point
   where the pipeline writes it back. -/
import proofs.«144192_j36369783063040_1_alg».proof.Proof.K.Runs0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x3 .f32) : Vec F S1024x1 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x3 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- The scratch column after a first-tile point. -/
def sout0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x3 .f32) : Vec F S1024x1 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x3 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x3 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- The scratch column after a middle-tile point, over what the point before left (xs0). -/
def sout0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x3 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- The output block after a last-tile point. -/
def out0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- The scratch column after a last-tile point. -/
def sout0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- (output block, scratch column) after the body at position n, by recursion on n: the case the position selects, run at
    the point's memrefs and input blocks, over the scratch column the position before left. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry every scoped buffer outside the staging buffers is held at anything; afterwards
    the scratch column is held at what the position before left, the other scoped buffers at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOther0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restOther0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restOther0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry form back: what the scratch column holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.Kernel.Gen

end
-- ==== Proof.K.Shared1.lean ====
/- Region 1 (a nearest-row sweep of the region's first operand against its second operand): what its three control cases share.
   The region's arrays are read at a parameter V, the contents of the core's buffers when the region is entered.
   A grid point t = 16·i + j handles rows 1024·i … of the first operand against rows 1024·j … of the second;
   the running minimum lives in a scratch column that is reset at j = 0 and copied to the output block at j = 15. -/
import proofs.«144192_j36369783063040_1_alg».proof.Proof.Gen.Kernel.Launch
import proofs.«144192_j36369783063040_1_alg».proof.Proof.Gen.Kernel.Skeleton
import proofs.«144192_j36369783063040_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The primary rows' staging buffer holds their block at every point, whether the point fetched it or not
    (between fetches the block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The other set's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first column tile" (j = 0): the scratch column is reset to +∞. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column tile" (j = 15): the scratch column is copied to the output block. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last column tile the output block is not stored into and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S1024x1 .f32 := (Memref.whole cc1_stg2_0 : Memref sig .tc .vmem S1024x1 .f32).view
abbrev ms1_0 (t : Fin cfg1.N) : Memref sig .tc .vmem S1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The scratch column carrying the running minimum. -/
abbrev scM1_0 : Memref sig .tc .vmem S1024x1 .f32 := Memref.whole cc1_scratch0
abbrev VS1_0 : View sig .tc .vmem S1024x1 .f32 := scM1_0.view

/-- The scoped buffers outside region 1's staging buffers, with the scratch column singled out as a memref. -/
abbrev restOther1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped buffers outside the region's staging buffers, listed with the scratch column first. -/
theorem scopedRestS1_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restOther1 c) :=
  Pipeline.scopedRest_eq_of_list spec1 c [cc1_scratch0, cc0_stg0_0, cc0_stg0_1, cc0_stg1_0, cc0_stg1_1, cc0_stg2_0, cc0_stg2_1, cc0_scratch0] (by decide) (by decide)

theorem PhiA1_eq (c : Dev nD) :
    (Pipeline.ΦA spec1 c : sProp 𝕄)
      = iprop(iprop((∃ d, owns (c : Thread nD τ) scM1_0 fullShare d) ∗ restOther1 c) ∗ (∃ r, prngReg c r)) := by
  unfold Pipeline.ΦA; rw [scopedRestS1_eq]; simp only [scM1_0, owns_whole]; try rfl

end Cert.Kernel.Gen

end
-- ==== Proof.K.Runs1.lean ====
/- Region 1: the kernel body run whole, once per control case. In each case the body leaves the two input blocks as
   they were; what it stores into the scratch column (and, at the last column tile, into the output block) is recorded
   as the list of pieces the run itself finds. -/
import proofs.«144192_j36369783063040_1_alg».proof.Proof.K.Shared1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First column tile (j = 0, not the last): the scratch column is entered at anything, reset to +∞ and then updated with
    this tile's row minima; the output block is not touched. -/
noncomputable def kernelRun1_A (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x3 .f32) (x1 : Vec F S1024x3 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle column tile (0 < j < 15): the scratch column is entered at what the point before left and updated with this
    tile's row minima; the output block is not touched. -/
noncomputable def kernelRun1_B (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last column tile (j = 15): the scratch column is entered at what the point before left, updated with this tile's
    row minima, and then copied whole into the output block (entered at anything). -/
noncomputable def kernelRun1_C (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.K.Frame1.lean ====
/- Region 1: what the scratch column and the output block hold after each grid point, the region's invariant, its proof
   data and the body obligation. After point n the scratch column holds the running minimum over the column tiles
   handled so far in n's row of tiles: reset-then-update at the first tile of a row, update of the previous contents otherwise.
   The output block is written (a copy of the scratch column) only at the last tile of a row, which is also the only point
   where the pipeline writes it back. -/
import proofs.«144192_j36369783063040_1_alg».proof.Proof.K.Runs1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out1_A_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x3 .f32) : Vec F S1024x1 .f32 :=
  VO1_2.read (Elt F) (VO1_2.writes (Elt F) VO1_2.junk (kernelRun1_A c i arg2 harg2 arg3 harg3 arg4 harg4 arg5 harg5 hc0 hc1 x0 x1).1)

theorem scover1_A_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x3 .f32) (y : S1024x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1.size (by sl_kernel_rfl) y

/-- The scratch column after a first-tile point. -/
def sout1_A_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x3 .f32) : Vec F S1024x1 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x3 .f32) (xs0 : Vec F S1024x1 .f32) : Vec F S1024x1 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x3 .f32) (xs0 : Vec F S1024x1 .f32) (y : S1024x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1.size (by sl_kernel_rfl) y

/-- The scratch column after a middle-tile point, over what the point before left (xs0). -/
def sout1_B_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x3 .f32) (xs0 : Vec F S1024x1 .f32) : Vec F S1024x1 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) (y : S1024x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1.size (by sl_kernel_rfl) y

/-- The output block after a last-tile point. -/
def out1_C_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) : Vec F S1024x1 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) (y : S1024x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1.size (by sl_kernel_rfl) y

/-- The scratch column after a last-tile point. -/
def sout1_C_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) : Vec F S1024x1 .f32 :=
  VS1_0.read (Elt F) (VS1_0.writes (Elt F) VS1_0.junk (kernelRun1_C c i arg2 harg2 arg3 harg3 arg4 harg4 arg5 harg5 hc0 hc1 x0 x1 xs0).2.1)

/-! ## Point by point -/

/-- (output block, scratch column) after the body at position n, by recursion on n: the case the position selects, run at
    the point's memrefs and input blocks, over the scratch column the position before left. -/
def outsAt1 (c : Dev nD) : (n : ℕ) → n < cfg1.N → Vec F S1024x1 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry every scoped buffer outside the staging buffers is held at anything; afterwards
    the scratch column is held at what the position before left, the other scoped buffers at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restOther1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restOther1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restOther1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the entry form back: what the scratch column holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Cert.Kernel.Gen

end
-- ==== Proof.K.Segs.lean ====
/- The run of @main over its four segments, at any float instance: region 0, the reshape of its output, region 1, then the
   reshape of region 1's output, the concatenation of the two columns, their sum and the division by the count.
   The contents of every unscoped buffer are followed from the launch memory through the four segments: a region leaves its
   windows' arrays at what its write-backs fold to and every other buffer as entered; a host stretch leaves the buffers at
   the stretch's own function of what it was entered with. The two argument arrays are written by no segment, so they end as
   launched; the result buffer ends at the last valuation's contents. -/
import proofs.«144192_j36369783063040_1_alg».proof.Proof.K.Frame0
import proofs.«144192_j36369783063040_1_alg».proof.Proof.K.Frame1
import proofs.«144192_j36369783063040_1_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => m (c, b)
/-- The same read at the core's references: what region 0 is entered with. -/
abbrev E0 : (c : Dev nD) → (b : Ref sig .tc) → Buf (Elt F) ((c : Thread nD τ).loc b) := fun c b => W0 m c b
/-- At region 0's exit: its arrays at what the pipeline leaves (an input as entered, the output's write-backs folded),
    every other buffer as entered. -/
def W1 (c : Dev nD) : Valuation τ sig (Elt F) :=
  Pipeline.withArrays spec0 c (W0 m c) fun w => (dat0 (E0 m) c).arrAt w cfg0.N
/-- After the reshape of region 0's output (region 1's entry). -/
abbrev W2 : Dev nD → Valuation τ sig (Elt F) := fun c => StableHlo.after hostOps1 (W1 m c)
/-- The same read at the core's references: what region 1 is entered with. -/
abbrev E2 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (dat1 (E2 m) c).arrAt w cfg1.N
/-- After the last host stretch: the return. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- At a region's exit each of its arrays holds what the pipeline leaves and every other buffer what it held at entry. -/
theorem hF0 (c : Dev nD) (w : Fin cfg0.W) : (dat0 (E0 m) c).arrAt w cfg0.N = W1 m c (Proc.devRef .tc (Pipeline.arrRef spec0 w)) :=
  (W1_arr m c w).symm
theorem hrest0 (c : Dev nD) : ∀ b : Ref sig .tc, b ∉ Finset.univ.image (Pipeline.arrRef spec0) → W1 m c (Proc.devRef .tc b) = E0 m c b :=
  fun b hb => W1_of_ne m c b fun w e => hb (Finset.mem_image.mpr ⟨w, Finset.mem_univ _, e⟩)
theorem hF1 (c : Dev nD) (w : Fin cfg1.W) : (dat1 (E2 m) c).arrAt w cfg1.N = W3 m c (Proc.devRef .tc (Pipeline.arrRef spec1 w)) :=
  (W3_arr m c w).symm
theorem hrest1 (c : Dev nD) : ∀ b : Ref sig .tc, b ∉ Finset.univ.image (Pipeline.arrRef spec1) → W3 m c (Proc.devRef .tc b) = E2 m c b :=
  fun b hb => W3_of_ne m c b fun w e => hb (Finset.mem_image.mpr ⟨w, Finset.mem_univ _, e⟩)

/-! ### The arguments are written by no segment: a host stretch writes only its own results, a region reads an argument
    through an input window, whose array it leaves as entered. So the fold at an argument walks back to the launch memory. -/

theorem E2_main_arg0 (c : Dev nD) : E2 m c main_arg0 = m ((c : Thread nD τ).loc main_arg0) :=
  calc E2 m c main_arg0
    _ = W1 m c (Proc.devRef .tc main_arg0) := StableHlo.after_of_writes_sub hostOps1 _ hostOps1_writes (by decide)
    _ = W0 m c (Proc.devRef .tc main_arg0) := (W1_arr m c 0).trans (((dat0 (E0 m) c).arrAt_in 0 rfl _).trans (A_eq0 (E0 m) c 0))
    _ = m ((c : Thread nD τ).loc main_arg0) := rfl
theorem E2_main_arg1 (c : Dev nD) : E2 m c main_arg1 = m ((c : Thread nD τ).loc main_arg1) :=
  calc E2 m c main_arg1
    _ = W1 m c (Proc.devRef .tc main_arg1) := StableHlo.after_of_writes_sub hostOps1 _ hostOps1_writes (by decide)
    _ = W0 m c (Proc.devRef .tc main_arg1) := (W1_arr m c 1).trans (((dat0 (E0 m) c).arrAt_in 1 rfl _).trans (A_eq0 (E0 m) c 1))
    _ = m ((c : Thread nD τ).loc main_arg1) := rfl
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = E2 m c main_arg0 := (W3_arr m c 1).trans (((dat1 (E2 m) c).arrAt_in 1 rfl _).trans (A_eq1 (E2 m) c 1))
    _ = m ((c : Thread nD τ).loc main_arg0) := E2_main_arg0 m c
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = E2 m c main_arg1 := (W3_arr m c 0).trans (((dat1 (E2 m) c).arrAt_in 0 rfl _).trans (A_eq1 (E2 m) c 0))
    _ = m ((c : Thread nD τ).loc main_arg1) := E2_main_arg1 m c

/-! ## The proof data family and the thread state -/

/-- What region 0 leaves and what region 1 leaves, read at the core's references. -/
abbrev E1 : (c : Dev nD) → (b : Ref sig .tc) → Buf (Elt F) ((c : Thread nD τ).loc b) := fun c b => W1 m c b
abbrev E3 : (c : Dev nD) → (b : Ref sig .tc) → Buf (Elt F) ((c : Thread nD τ).loc b) := fun c b => W3 m c b

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment: entered with every unscoped buffer at W, it leaves them at the stretch's function of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered with every unscoped buffer at the launch contents, left with them at W1. Its arrays are split out of the
    unscoped buffers at entry and put back at the exit contents; the generator register and the scoped buffers no window stages
    go into the region's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (E0 m) c)
    unfold Pipeline.ΦA
    iintro ⟨Hp, -, Hr⟩
    isplitl [Hr]; · iexact Hr
    iexact Hp
  hout c := by
    rw [Pipeline.ownSems0_none]
    refine Idealize.SL.BI.BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at W2 (what the first reshape leaves), left with them at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (E2 m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: region 0, the reshape of its output, region 1, the closing host stretch. -/
abbrev runSegs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (runSegs m) := (main_chain c).trans (by chain_rfl)

set_option backward.isDefEq.respectTransparency.types false in
/-- From any memory with zero counters every weakly fair execution of @main on the cores terminates, and in every final
    state the result buffer holds the last valuation's contents and the two argument arrays are as launched. -/
theorem run_all : θ_run defs (onTc (τ := τ) (main (F := F))) ⟨m, fun _ => 0, ρ⟩ (fun r => ∀ c : Dev nD,
      r.2.mem ((c.tc : Thread nD τ).loc main_v6) = W4 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v6 (by decide)),
       (h c _ (mem_uc main_arg0 (by decide))).trans (W4_main_arg0 m c),
       (h c _ (mem_uc main_arg1 (by decide))).trans (W4_main_arg1 m c)⟩)

end Cert.Kernel.Gen

end
-- ==== Proof.KI.Shared0.lean ====
/- Region 0 (a nearest-row sweep of the region's first operand against its second operand): what its three control cases share.
   The region's arrays are read at a parameter V, the contents of the core's buffers when the region is entered.
   A grid point t = 16·i + j handles rows 1024·i … of the first operand against rows 1024·j … of the second;
   the running minimum lives in a scratch column that is reset at j = 0 and copied to the output block at j = 15. -/
import proofs.«144192_j36369783063040_1_alg».proof.Proof.Gen.KernelIdeal.Launch
import proofs.«144192_j36369783063040_1_alg».proof.Proof.Gen.KernelIdeal.Skeleton
import proofs.«144192_j36369783063040_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The primary rows' staging buffer holds their block at every point, whether the point fetched it or not
    (between fetches the block index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The other set's staging buffer holds its block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first column tile" (j = 0): the scratch column is reset to +∞. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column tile" (j = 15): the scratch column is copied to the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the output block is not stored into and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column carrying the running minimum. -/
abbrev scM0_0 : Memref sig .tc .vmem S1024x1 .f32 := Memref.whole cc0_scratch0
abbrev VS0_0 : View sig .tc .vmem S1024x1 .f32 := scM0_0.view

/-- The scoped buffers outside region 0's staging buffers, with the scratch column singled out as a memref. -/
abbrev restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped buffers outside the region's staging buffers, listed with the scratch column first. -/
theorem scopedRestS0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restOther0 c) :=
  Pipeline.scopedRest_eq_of_list spec0 c [cc0_scratch0, cc1_stg0_0, cc1_stg0_1, cc1_stg1_0, cc1_stg1_1, cc1_stg2_0, cc1_stg2_1, cc1_scratch0] (by decide) (by decide)

theorem PhiA0_eq (c : Dev nD) :
    (Pipeline.ΦA spec0 c : sProp 𝕄)
      = iprop(iprop((∃ d, owns (c : Thread nD τ) scM0_0 fullShare d) ∗ restOther0 c) ∗ (∃ r, prngReg c r)) := by
  unfold Pipeline.ΦA; rw [scopedRestS0_eq]; simp only [scM0_0, owns_whole]; try rfl

end Cert.KernelIdeal.Gen

end
-- ==== Proof.KI.Runs0.lean ====
/- Region 0: the kernel body run whole, once per control case. In each case the body leaves the two input blocks as
   they were; what it stores into the scratch column (and, at the last column tile, into the output block) is recorded
   as the list of pieces the run itself finds. -/
import proofs.«144192_j36369783063040_1_alg».proof.Proof.KI.Shared0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First column tile (j = 0, not the last): the scratch column is entered at anything, reset to +∞ and then updated with
    this tile's row minima; the output block is not touched. -/
noncomputable def kernelRun0_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle column tile (0 < j < 15): the scratch column is entered at what the point before left and updated with this
    tile's row minima; the output block is not touched. -/
noncomputable def kernelRun0_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last column tile (j = 15): the scratch column is entered at what the point before left, updated with this tile's
    row minima, and then copied whole into the output block (entered at anything). -/
noncomputable def kernelRun0_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.Frame0.lean ====
/- Region 0: what the scratch column and the output block hold after each grid point, the region's invariant, its proof
   data and the body obligation. After point n the scratch column holds the running minimum over the column tiles
   handled so far in n's row of tiles: reset-then-update at the first tile of a row, update of the previous contents otherwise.
   The output block is written (a copy of the scratch column) only at the last tile of a row, which is also the only point
   where the pipeline writes it back. -/
import proofs.«144192_j36369783063040_1_alg».proof.Proof.KI.Runs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x3 .f32) : Vec F S1024x1 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x3 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- The scratch column after a first-tile point. -/
def sout0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x3 .f32) : Vec F S1024x1 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x3 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x3 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- The scratch column after a middle-tile point, over what the point before left (xs0). -/
def sout0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x3 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- The output block after a last-tile point. -/
def out0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- The scratch column after a last-tile point. -/
def sout0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- (output block, scratch column) after the body at position n, by recursion on n: the case the position selects, run at
    the point's memrefs and input blocks, over the scratch column the position before left. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry every scoped buffer outside the staging buffers is held at anything; afterwards
    the scratch column is held at what the position before left, the other scoped buffers at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOther0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restOther0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restOther0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry form back: what the scratch column holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Gen

end
-- ==== Proof.KI.Shared1.lean ====
/- Region 1 (a nearest-row sweep of the region's first operand against its second operand): what its three control cases share.
   The region's arrays are read at a parameter V, the contents of the core's buffers when the region is entered.
   A grid point t = 16·i + j handles rows 1024·i … of the first operand against rows 1024·j … of the second;
   the running minimum lives in a scratch column that is reset at j = 0 and copied to the output block at j = 15. -/
import proofs.«144192_j36369783063040_1_alg».proof.Proof.Gen.KernelIdeal.Launch
import proofs.«144192_j36369783063040_1_alg».proof.Proof.Gen.KernelIdeal.Skeleton
import proofs.«144192_j36369783063040_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The primary rows' staging buffer holds their block at every point, whether the point fetched it or not
    (between fetches the block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The other set's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first column tile" (j = 0): the scratch column is reset to +∞. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column tile" (j = 15): the scratch column is copied to the output block. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last column tile the output block is not stored into and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S1024x1 .f32 := (Memref.whole cc1_stg2_0 : Memref sig .tc .vmem S1024x1 .f32).view
abbrev ms1_0 (t : Fin cfg1.N) : Memref sig .tc .vmem S1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The scratch column carrying the running minimum. -/
abbrev scM1_0 : Memref sig .tc .vmem S1024x1 .f32 := Memref.whole cc1_scratch0
abbrev VS1_0 : View sig .tc .vmem S1024x1 .f32 := scM1_0.view

/-- The scoped buffers outside region 1's staging buffers, with the scratch column singled out as a memref. -/
abbrev restOther1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped buffers outside the region's staging buffers, listed with the scratch column first. -/
theorem scopedRestS1_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restOther1 c) :=
  Pipeline.scopedRest_eq_of_list spec1 c [cc1_scratch0, cc0_stg0_0, cc0_stg0_1, cc0_stg1_0, cc0_stg1_1, cc0_stg2_0, cc0_stg2_1, cc0_scratch0] (by decide) (by decide)

theorem PhiA1_eq (c : Dev nD) :
    (Pipeline.ΦA spec1 c : sProp 𝕄)
      = iprop(iprop((∃ d, owns (c : Thread nD τ) scM1_0 fullShare d) ∗ restOther1 c) ∗ (∃ r, prngReg c r)) := by
  unfold Pipeline.ΦA; rw [scopedRestS1_eq]; simp only [scM1_0, owns_whole]; try rfl

end Cert.KernelIdeal.Gen

end
-- ==== Proof.KI.Runs1.lean ====
/- Region 1: the kernel body run whole, once per control case. In each case the body leaves the two input blocks as
   they were; what it stores into the scratch column (and, at the last column tile, into the output block) is recorded
   as the list of pieces the run itself finds. -/
import proofs.«144192_j36369783063040_1_alg».proof.Proof.KI.Shared1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First column tile (j = 0, not the last): the scratch column is entered at anything, reset to +∞ and then updated with
    this tile's row minima; the output block is not touched. -/
noncomputable def kernelRun1_A (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x3 .f32) (x1 : Vec F S1024x3 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle column tile (0 < j < 15): the scratch column is entered at what the point before left and updated with this
    tile's row minima; the output block is not touched. -/
noncomputable def kernelRun1_B (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last column tile (j = 15): the scratch column is entered at what the point before left, updated with this tile's
    row minima, and then copied whole into the output block (entered at anything). -/
noncomputable def kernelRun1_C (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.Frame1.lean ====
/- Region 1: what the scratch column and the output block hold after each grid point, the region's invariant, its proof
   data and the body obligation. After point n the scratch column holds the running minimum over the column tiles
   handled so far in n's row of tiles: reset-then-update at the first tile of a row, update of the previous contents otherwise.
   The output block is written (a copy of the scratch column) only at the last tile of a row, which is also the only point
   where the pipeline writes it back. -/
import proofs.«144192_j36369783063040_1_alg».proof.Proof.KI.Runs1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out1_A_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x3 .f32) : Vec F S1024x1 .f32 :=
  VO1_2.read (Elt F) (VO1_2.writes (Elt F) VO1_2.junk (kernelRun1_A c i arg2 harg2 arg3 harg3 arg4 harg4 arg5 harg5 hc0 hc1 x0 x1).1)

theorem scover1_A_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x3 .f32) (y : S1024x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1.size (by sl_kernel_rfl) y

/-- The scratch column after a first-tile point. -/
def sout1_A_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 x1 : Vec F S1024x3 .f32) : Vec F S1024x1 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x3 .f32) (xs0 : Vec F S1024x1 .f32) : Vec F S1024x1 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x3 .f32) (xs0 : Vec F S1024x1 .f32) (y : S1024x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1.size (by sl_kernel_rfl) y

/-- The scratch column after a middle-tile point, over what the point before left (xs0). -/
def sout1_B_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 x1 : Vec F S1024x3 .f32) (xs0 : Vec F S1024x1 .f32) : Vec F S1024x1 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) (y : S1024x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1.size (by sl_kernel_rfl) y

/-- The output block after a last-tile point. -/
def out1_C_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) : Vec F S1024x1 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) (y : S1024x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1.size (by sl_kernel_rfl) y

/-- The scratch column after a last-tile point. -/
def sout1_C_0 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 x1 : Vec F S1024x3 .f32) (xs0 : Vec F S1024x1 .f32) : Vec F S1024x1 .f32 :=
  VS1_0.read (Elt F) (VS1_0.writes (Elt F) VS1_0.junk (kernelRun1_C c i arg2 harg2 arg3 harg3 arg4 harg4 arg5 harg5 hc0 hc1 x0 x1 xs0).2.1)

/-! ## Point by point -/

/-- (output block, scratch column) after the body at position n, by recursion on n: the case the position selects, run at
    the point's memrefs and input blocks, over the scratch column the position before left. -/
def outsAt1 (c : Dev nD) : (n : ℕ) → n < cfg1.N → Vec F S1024x1 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry every scoped buffer outside the staging buffers is held at anything; afterwards
    the scratch column is held at what the position before left, the other scoped buffers at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restOther1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restOther1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restOther1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the entry form back: what the scratch column holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Cert.KernelIdeal.Gen

end
-- ==== Proof.KI.Segs.lean ====
/- The run of @main over its four segments, at any float instance: region 0, the reshape of its output, region 1, then the
   reshape of region 1's output, the concatenation of the two columns, their sum and the division by the count.
   The contents of every unscoped buffer are followed from the launch memory through the four segments: a region leaves its
   windows' arrays at what its write-backs fold to and every other buffer as entered; a host stretch leaves the buffers at
   the stretch's own function of what it was entered with. The two argument arrays are written by no segment, so they end as
   launched; the result buffer ends at the last valuation's contents. -/
import proofs.«144192_j36369783063040_1_alg».proof.Proof.KI.Frame0
import proofs.«144192_j36369783063040_1_alg».proof.Proof.KI.Frame1
import proofs.«144192_j36369783063040_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => m (c, b)
/-- The same read at the core's references: what region 0 is entered with. -/
abbrev E0 : (c : Dev nD) → (b : Ref sig .tc) → Buf (Elt F) ((c : Thread nD τ).loc b) := fun c b => W0 m c b
/-- At region 0's exit: its arrays at what the pipeline leaves (an input as entered, the output's write-backs folded),
    every other buffer as entered. -/
def W1 (c : Dev nD) : Valuation τ sig (Elt F) :=
  Pipeline.withArrays spec0 c (W0 m c) fun w => (dat0 (E0 m) c).arrAt w cfg0.N
/-- After the reshape of region 0's output (region 1's entry). -/
abbrev W2 : Dev nD → Valuation τ sig (Elt F) := fun c => StableHlo.after hostOps1 (W1 m c)
/-- The same read at the core's references: what region 1 is entered with. -/
abbrev E2 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (dat1 (E2 m) c).arrAt w cfg1.N
/-- After the last host stretch: the return. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- At a region's exit each of its arrays holds what the pipeline leaves and every other buffer what it held at entry. -/
theorem hF0 (c : Dev nD) (w : Fin cfg0.W) : (dat0 (E0 m) c).arrAt w cfg0.N = W1 m c (Proc.devRef .tc (Pipeline.arrRef spec0 w)) :=
  (W1_arr m c w).symm
theorem hrest0 (c : Dev nD) : ∀ b : Ref sig .tc, b ∉ Finset.univ.image (Pipeline.arrRef spec0) → W1 m c (Proc.devRef .tc b) = E0 m c b :=
  fun b hb => W1_of_ne m c b fun w e => hb (Finset.mem_image.mpr ⟨w, Finset.mem_univ _, e⟩)
theorem hF1 (c : Dev nD) (w : Fin cfg1.W) : (dat1 (E2 m) c).arrAt w cfg1.N = W3 m c (Proc.devRef .tc (Pipeline.arrRef spec1 w)) :=
  (W3_arr m c w).symm
theorem hrest1 (c : Dev nD) : ∀ b : Ref sig .tc, b ∉ Finset.univ.image (Pipeline.arrRef spec1) → W3 m c (Proc.devRef .tc b) = E2 m c b :=
  fun b hb => W3_of_ne m c b fun w e => hb (Finset.mem_image.mpr ⟨w, Finset.mem_univ _, e⟩)

/-! ### The arguments are written by no segment: a host stretch writes only its own results, a region reads an argument
    through an input window, whose array it leaves as entered. So the fold at an argument walks back to the launch memory. -/

theorem E2_main_arg0 (c : Dev nD) : E2 m c main_arg0 = m ((c : Thread nD τ).loc main_arg0) :=
  calc E2 m c main_arg0
    _ = W1 m c (Proc.devRef .tc main_arg0) := StableHlo.after_of_writes_sub hostOps1 _ hostOps1_writes (by decide)
    _ = W0 m c (Proc.devRef .tc main_arg0) := (W1_arr m c 0).trans (((dat0 (E0 m) c).arrAt_in 0 rfl _).trans (A_eq0 (E0 m) c 0))
    _ = m ((c : Thread nD τ).loc main_arg0) := rfl
theorem E2_main_arg1 (c : Dev nD) : E2 m c main_arg1 = m ((c : Thread nD τ).loc main_arg1) :=
  calc E2 m c main_arg1
    _ = W1 m c (Proc.devRef .tc main_arg1) := StableHlo.after_of_writes_sub hostOps1 _ hostOps1_writes (by decide)
    _ = W0 m c (Proc.devRef .tc main_arg1) := (W1_arr m c 1).trans (((dat0 (E0 m) c).arrAt_in 1 rfl _).trans (A_eq0 (E0 m) c 1))
    _ = m ((c : Thread nD τ).loc main_arg1) := rfl
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = E2 m c main_arg0 := (W3_arr m c 1).trans (((dat1 (E2 m) c).arrAt_in 1 rfl _).trans (A_eq1 (E2 m) c 1))
    _ = m ((c : Thread nD τ).loc main_arg0) := E2_main_arg0 m c
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = E2 m c main_arg1 := (W3_arr m c 0).trans (((dat1 (E2 m) c).arrAt_in 0 rfl _).trans (A_eq1 (E2 m) c 0))
    _ = m ((c : Thread nD τ).loc main_arg1) := E2_main_arg1 m c

/-! ## The proof data family and the thread state -/

/-- What region 0 leaves and what region 1 leaves, read at the core's references. -/
abbrev E1 : (c : Dev nD) → (b : Ref sig .tc) → Buf (Elt F) ((c : Thread nD τ).loc b) := fun c b => W1 m c b
abbrev E3 : (c : Dev nD) → (b : Ref sig .tc) → Buf (Elt F) ((c : Thread nD τ).loc b) := fun c b => W3 m c b

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment: entered with every unscoped buffer at W, it leaves them at the stretch's function of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered with every unscoped buffer at the launch contents, left with them at W1. Its arrays are split out of the
    unscoped buffers at entry and put back at the exit contents; the generator register and the scoped buffers no window stages
    go into the region's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (E0 m) c)
    unfold Pipeline.ΦA
    iintro ⟨Hp, -, Hr⟩
    isplitl [Hr]; · iexact Hr
    iexact Hp
  hout c := by
    rw [Pipeline.ownSems0_none]
    refine Idealize.SL.BI.BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at W2 (what the first reshape leaves), left with them at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (E2 m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: region 0, the reshape of its output, region 1, the closing host stretch. -/
abbrev runSegs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (runSegs m) := (main_chain c).trans (by chain_rfl)

set_option backward.isDefEq.respectTransparency.types false in
/-- From any memory with zero counters every weakly fair execution of @main on the cores terminates, and in every final
    state the result buffer holds the last valuation's contents and the two argument arrays are as launched. -/
theorem run_all : θ_run defs (onTc (τ := τ) (main (F := F))) ⟨m, fun _ => 0, ρ⟩ (fun r => ∀ c : Dev nD,
      r.2.mem ((c.tc : Thread nD τ).loc main_v6) = W4 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v6 (by decide)),
       (h c _ (mem_uc main_arg0 (by decide))).trans (W4_main_arg0 m c),
       (h c _ (mem_uc main_arg1 (by decide))).trans (W4_main_arg1 m c)⟩)

end Cert.KernelIdeal.Gen

end
-- ==== Proof.KI.Pieces0.lean ====
/- Region 0: what each control case leaves in the scratch column and in the output block, as explicit terms of the body's
   three stored values: with T the tile's row minima of the two input blocks, a first-tile point leaves update(T, reset) in the
   scratch column, any later point leaves update(T, previous contents), and the last-tile point copies that same column to the
   output block. -/
import proofs.«144192_j36369783063040_1_alg».proof.Proof.KI.Frame0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Every store and load of the body is through the whole-shape rectangle at offsets (0, 0). -/
private theorem zeroOffsets : (![0, 0] : Fin 2 → Nat) = fun _ => 0 := funext fun a => by fin_cases a <;> rfl

theorem sout0_A_0_eq (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 x1 : Vec F S1024x3 .f32) :
    sout0_A_0 c i arg2 harg2 arg3 harg3 arg4 harg4 arg5 harg5 hc0 hc1 x0 x1 = k0_pay1 (k0_pay3 x0 x1) (k0_pay2 (F := F)) := by
  -- Two whole-column stores: the reset, then the update of what was read back. The later one decides the column,
  -- and the read-back between them sees exactly the reset.
  unfold sout0_A_0
  rw [View.read_writes_eq_canon _ _ _ (scover0_A_0 c i arg2 harg2 arg3 harg3 arg4 harg4 arg5 harg5 hc0 hc1 x0 x1)]
  unfold kernelRun0_A; dsimp only; sl_unfold_words
  rw [View.canon_cons_unit_zero (S := S1024x1) zeroOffsets, View.readCov_unit_zero (S := S1024x1) _ zeroOffsets]
  simp only [View.readAt_eq_ld, harg2.read_unread, harg3.read_unread, View.ld_unit_zero (S := S1024x3) zeroOffsets]

theorem sout0_B_0_eq (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 x1 : Vec F S1024x3 .f32) (xs0 : Vec F S1024x1 .f32) :
    sout0_B_0 c i arg2 harg2 arg3 harg3 arg4 harg4 arg5 harg5 hc0 hc1 x0 x1 xs0 = k0_pay1 (k0_pay3 x0 x1) xs0 := by
  -- One whole-column store: the update of the previous contents, which the load before it reads unchanged.
  unfold sout0_B_0
  rw [View.read_writes_eq_canon _ _ _ (scover0_B_0 c i arg2 harg2 arg3 harg3 arg4 harg4 arg5 harg5 hc0 hc1 x0 x1 xs0)]
  unfold kernelRun0_B; dsimp only; sl_unfold_words
  rw [View.canon_unit_zero (S := S1024x1) zeroOffsets]
  simp only [View.readAt_eq_ld, harg2.read_unread, harg3.read_unread, harg5.read_unread,
    View.ld_unit_zero (S := S1024x3) zeroOffsets, View.ld_unit_zero (S := S1024x1) zeroOffsets]

theorem sout0_C_0_eq (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 x1 : Vec F S1024x3 .f32) (xs0 : Vec F S1024x1 .f32) :
    sout0_C_0 c i arg2 harg2 arg3 harg3 arg4 harg4 arg5 harg5 hc0 hc1 x0 x1 xs0 = k0_pay1 (k0_pay3 x0 x1) xs0 := by
  -- As at a middle tile: the copy to the output block that follows does not write the scratch column.
  unfold sout0_C_0
  rw [View.read_writes_eq_canon _ _ _ (scover0_C_0 c i arg2 harg2 arg3 harg3 arg4 harg4 arg5 harg5 hc0 hc1 x0 x1 xs0)]
  unfold kernelRun0_C; dsimp only; sl_unfold_words
  rw [View.canon_unit_zero (S := S1024x1) zeroOffsets]
  simp only [View.readAt_eq_ld, harg2.read_unread, harg3.read_unread, harg5.read_unread,
    View.ld_unit_zero (S := S1024x3) zeroOffsets, View.ld_unit_zero (S := S1024x1) zeroOffsets]

theorem out0_C_2_eq (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 x1 : Vec F S1024x3 .f32) (xs0 : Vec F S1024x1 .f32) :
    out0_C_2 c i arg2 harg2 arg3 harg3 arg4 harg4 arg5 harg5 hc0 hc1 x0 x1 xs0 = k0_pay1 (k0_pay3 x0 x1) xs0 := by
  -- One whole-block store of the scratch column as read back after its update: the same value as the column's.
  unfold out0_C_2
  rw [View.read_writes_eq_canon _ _ _ (cover0_C_2 c i arg2 harg2 arg3 harg3 arg4 harg4 arg5 harg5 hc0 hc1 x0 x1 xs0)]
  unfold kernelRun0_C; dsimp only; sl_unfold_words
  rw [View.canon_unit_zero (S := S1024x1) zeroOffsets]
  simp only [View.readAt_eq_ld, harg2.read_unread, harg3.read_unread, harg5.read_unread,
    View.ld_unit_zero (S := S1024x3) zeroOffsets, View.ld_unit_zero (S := S1024x1) zeroOffsets,
    View.readCov_unit_zero (S := S1024x1) _ zeroOffsets]

end Cert.KernelIdeal.Gen

end
-- ==== Proof.Spec.lean ====
/- The mathematics both programs compute, stated once over the extended reals.
   For two point sets p, q (rows of 3 coordinates), dist p q n m is the Euclidean distance between row n of p and row m of q in
   the expanded form  sqrt (max (|p_n|² + |q_m|² − 2·⟨p_n, q_m⟩) 0),  and  nearest p q n  is its infimum over m.
   The distance is symmetric in its two arguments, by commutativity of + and · alone. Stated for any numbers of rows, so that
   the same definitions speak of a whole point set (16384 rows) and of one tile of it (1024 rows). -/
import Idealize.ShloMosaic.PureOps.Ideal
import Idealize.ShloMosaic.Lib.ValueIdx

noncomputable section

namespace Cert.Spec

open Idealize.ShloMosaic Idealize.ShloMosaic.ValueIdx

/-- A point set of N rows: N × 3 extended reals. -/
abbrev Pts (N : Nat) : Type := (⟨2, ![N, 3]⟩ : Shape).Idx → EReal

variable {N M : Nat}

/-- The squared norm of row n, summed in the order (x² + y²) + z². -/
def nrm2 (p : Pts N) (n : Fin N) : EReal :=
  p (ix2 n (0 : Fin 3)) * p (ix2 n (0 : Fin 3)) + p (ix2 n (1 : Fin 3)) * p (ix2 n (1 : Fin 3)) + p (ix2 n (2 : Fin 3)) * p (ix2 n (2 : Fin 3))

/-- The inner product of row n of p with row m of q, summed in the order (x·x' + y·y') + z·z'. -/
def dot3 (p : Pts N) (q : Pts M) (n : Fin N) (m : Fin M) : EReal :=
  p (ix2 n (0 : Fin 3)) * q (ix2 m (0 : Fin 3)) + p (ix2 n (1 : Fin 3)) * q (ix2 m (1 : Fin 3)) + p (ix2 n (2 : Fin 3)) * q (ix2 m (2 : Fin 3))

/-- The expanded, clamped Euclidean distance between row n of p and row m of q. The constants 2 and 0 are kept as the
    float patterns both programs spell. -/
def dist (p : Pts N) (q : Pts M) (n : Fin N) (m : Fin M) : EReal :=
  Ideal.sqrt (max ((nrm2 p n + nrm2 q m) - Ideal.ofBits .f32 0x40000000#32 * dot3 p q n m) (Ideal.ofBits .f32 0x00000000#32))

/-- The distance from row n of p to the nearest row of q. -/
def nearest (p : Pts N) (q : Pts M) (n : Fin N) : EReal :=
  Finset.univ.inf fun m : Fin M => dist p q n m

theorem dot3_comm (p : Pts N) (q : Pts M) (n : Fin N) (m : Fin M) : dot3 p q n m = dot3 q p m n := by
  unfold dot3
  rw [mul_comm (p (ix2 n (0 : Fin 3))), mul_comm (p (ix2 n (1 : Fin 3))), mul_comm (p (ix2 n (2 : Fin 3)))]

theorem dist_comm (p : Pts N) (q : Pts M) (n : Fin N) (m : Fin M) : dist p q n m = dist q p m n := by
  unfold dist; rw [dot3_comm p q n m, add_comm (nrm2 p n) (nrm2 q m)]

/-- The nearest-point distance read with the roles exchanged: the infimum over the FIRST index of dist p q. -/
theorem nearest_swap (p : Pts N) (q : Pts M) (m : Fin M) :
    (Finset.univ.inf fun n : Fin N => dist p q n m) = nearest q p m := by
  unfold nearest; simp only [dist_comm p q]

/-- The universal property the two programs' minima are compared through. -/
theorem le_nearest_iff (p : Pts N) (q : Pts M) (n : Fin N) (x : EReal) : x ≤ nearest p q n ↔ ∀ m : Fin M, x ≤ dist p q n m := by
  unfold nearest; simp only [Finset.le_inf_iff, Finset.mem_univ, forall_true_left]

end Cert.Spec

end
-- ==== Proof.Payload.lean ====
/- The kernel body's three stored values, read at an index over the extended reals.
   For a tile of 1024 primary rows x0 against a tile of 1024 other rows x1: the row minima of the tile (entry r is the distance
   from row r of x0 to the nearest row of x1), the update of the running-minimum column (entrywise min with the row minima), and
   the reset column (+∞ everywhere). Both kernel functions have the same body, so the second's facts are the first's. -/
import proofs.«144192_j36369783063040_1_alg».proof.Proof.Gen.KernelIdeal.Skeleton
import proofs.«144192_j36369783063040_1_alg».proof.Proof.Spec
import Idealize.ShloMosaic.Lib.ValueIdx
import Idealize.ShloMosaic.Lib.Pipeline.Value
import Idealize.ShloMosaic.Lib.ValueLayout
import Idealize.ShloMosaic.PureOps.Reduce
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen

/-! ## Layout operations on columns, read at coordinates

A column is an [a, 1] array. Cutting column k out of an [a, 3] array, flattening a column to a vector [a] and back, and
repeating a column across b columns each read one entry of the operand; the entry is named by its coordinates. -/

section Layout
variable {α : Type}

/-- Column o of a matrix, cut out as an [n0, 1] array, reads at (a, ·) the matrix at (a, k), k being column o. -/
theorem slice_col_apply {n0 n1 : Nat} (o : Nat) (X : (⟨2, ![n0, n1]⟩ : Shape).Idx → α)
    (h : (⟨2, ![n0, n1]⟩ : Shape).Slices ![0, o] ⟨2, ![n0, 1]⟩) (a : Fin n0) (u : Fin 1) (k : Fin n1) (hk : k.val = o) :
    extractStridedSlice ⟨2, ![n0, 1]⟩ ![0, o] X h (ix2 a u) = X (ix2 a k) :=
  slice2_axis1_apply o X h a u k (by have := u.isLt; omega)

/-- The three coordinate columns of an [n0, 3] array of points. -/
theorem col0_apply {n0 : Nat} (X : (⟨2, ![n0, 3]⟩ : Shape).Idx → α) (h : (⟨2, ![n0, 3]⟩ : Shape).Slices ![0, 0] ⟨2, ![n0, 1]⟩)
    (a : Fin n0) (u : Fin 1) : extractStridedSlice ⟨2, ![n0, 1]⟩ ![0, 0] X h (ix2 a u) = X (ix2 a (0 : Fin 3)) :=
  slice_col_apply 0 X h a u 0 rfl

theorem col1_apply {n0 : Nat} (X : (⟨2, ![n0, 3]⟩ : Shape).Idx → α) (h : (⟨2, ![n0, 3]⟩ : Shape).Slices ![0, 1] ⟨2, ![n0, 1]⟩)
    (a : Fin n0) (u : Fin 1) : extractStridedSlice ⟨2, ![n0, 1]⟩ ![0, 1] X h (ix2 a u) = X (ix2 a (1 : Fin 3)) :=
  slice_col_apply 1 X h a u 1 rfl

theorem col2_apply {n0 : Nat} (X : (⟨2, ![n0, 3]⟩ : Shape).Idx → α) (h : (⟨2, ![n0, 3]⟩ : Shape).Slices ![0, 2] ⟨2, ![n0, 1]⟩)
    (a : Fin n0) (u : Fin 1) : extractStridedSlice ⟨2, ![n0, 1]⟩ ![0, 2] X h (ix2 a u) = X (ix2 a (2 : Fin 3)) :=
  slice_col_apply 2 X h a u 2 rfl

/-- A column [a, 1] flattened to a vector [a] reads, at i, the column at (i, 0): both sit at row-major position i. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] stood up as a column [a, 1] reads, at (i, ·), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated across b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The square root at an index, and a row's minimum as an infimum -/

/-- The square root of a vector reads, at an index, the extended reals' square root of the entry. -/
theorem sqrt_apply {s : Shape} {φ : FTy} (a : FVec Ideal s φ) (i : s.Idx) : sqrt a i = Ideal.sqrt (a i) := rfl

/-- The pattern 0x7F800000 denotes +∞. -/
theorem top_pattern : Ideal.ofBits .f32 0x7F800000#32 = (⊤ : EReal) := by simp [Ideal.ofBits, Ideal.ieee]

/-- Of a 1024 × 1024 array reduced along its columns, the source index over row r with column coordinate q is (r, q). -/
theorem lift_row (h : S1024x1024.Reduces [1] S1024) (r q : Fin 1024) : h.lift (ix1 r) q = ix2 r q := by
  funext a
  match a with
  | ⟨0, _⟩ => rfl
  | ⟨1, _⟩ => rfl

/-- The minimum along the columns of a 1024 × 1024 array, started from +∞, is at row r the infimum of the row's entries:
    min commutes and associates, so the fold over the row's indices is a fold over the column coordinate in any order, and
    the fold of min from ⊤ over a finite set is its infimum. -/
theorem rowMin_apply (src : FVec Ideal S1024x1024 .f32) (h : S1024x1024.Reduces [1] S1024) (hφ : FKind.Formats .f32)
    (hacc : (0x7F800000#32 : BitVec 32) = FKind.minimumf.neutral .f32 hφ) (r : Fin 1024) :
    multiReduction .minimumf [1] S1024 src 0x7F800000#32 h hφ hacc (ix1 r)
      = Finset.univ.inf fun q : Fin 1024 => src (ix2 r q) := by
  refine (multiReduction_minimumf_eq_fold src _ h hφ hacc (ix1 r)).trans ?_
  refine (h.fold_filter_drop_single _ _ src (ix1 r)).trans ?_
  show (Finset.univ : Finset (Fin 1024)).fold min (Ideal.ofBits .f32 0x7F800000#32) (fun q => src (h.lift (ix1 r) q)) = _
  rw [top_pattern]
  refine Eq.trans (b := Finset.univ.inf fun q : Fin 1024 => src (h.lift (ix1 r) q)) rfl ?_
  exact Finset.inf_congr rfl (fun q _ => congrArg src (lift_row h r q))

/-! ## The three stored values -/

/-- Entry r of a tile's row minima is the distance from row r of the primary tile to the nearest row of the other tile. -/
theorem k0_pay3_apply (x0 x1 : Vec Ideal S1024x3 .f32) (r : Fin 1024) :
    k0_pay3 (F := Ideal) x0 x1 (ix1 r) = Cert.Spec.nearest (N := 1024) (M := 1024) x0 x1 r := by
  -- the row minimum is the infimum over the column coordinate q; under it, every operation reads one entry
  unfold k0_pay3 Cert.Spec.nearest
  refine (rowMin_apply _ _ _ _ r).trans ?_
  refine Finset.inf_congr rfl (fun q _ => ?_)
  unfold Cert.Spec.dist Cert.Spec.nrm2 Cert.Spec.dot3
  -- entry (r, q): columns of x0 read at row r, columns of x1 (flattened, laid as a row) read at row q
  simp only [sqrt_apply, maximumf_apply, subf_apply, addf_apply, mulf_apply, broadcast_apply,
    broadcastTo_a1_ab_apply, broadcastTo_1b_ab_apply, shapeCast_a_1a_apply, shapeCast_a1_a_apply,
    col0_apply, col1_apply, col2_apply]
  -- what is left differs only in how the two constants' patterns are read, which is the same function
  rfl

/-- The updated running-minimum column: entrywise the smaller of the old column and the tile's row minima. -/
theorem k0_pay1_apply (v47 : FVec Ideal S1024 .f32) (v49 : Vec Ideal S1024x1 .f32) (r : Fin 1024) :
    k0_pay1 (F := Ideal) v47 v49 (ix2 r (0 : Fin 1)) = min (v49 (ix2 r (0 : Fin 1))) (v47 (ix1 r)) := by
  unfold k0_pay1
  simp only [shapeCast_self, minimumf_apply, shapeCast_a_a1_apply]

/-- The reset column is +∞ everywhere. -/
theorem k0_pay2_apply (y : S1024x1.Idx) : k0_pay2 (F := Ideal) y = ⊤ := by
  unfold k0_pay2
  simp only [shapeCast_self, broadcast_apply]
  exact top_pattern

theorem k1_pay3_apply (x0 x1 : Vec Ideal S1024x3 .f32) (r : Fin 1024) :
    k1_pay3 (F := Ideal) x0 x1 (ix1 r) = Cert.Spec.nearest (N := 1024) (M := 1024) x0 x1 r := by
  show k0_pay3 (F := Ideal) x0 x1 (ix1 r) = _
  exact k0_pay3_apply x0 x1 r

theorem k1_pay1_apply (v47 : FVec Ideal S1024 .f32) (v49 : Vec Ideal S1024x1 .f32) (r : Fin 1024) :
    k1_pay1 (F := Ideal) v47 v49 (ix2 r (0 : Fin 1)) = min (v49 (ix2 r (0 : Fin 1))) (v47 (ix1 r)) := by
  show k0_pay1 (F := Ideal) v47 v49 (ix2 r (0 : Fin 1)) = _
  exact k0_pay1_apply v47 v49 r

theorem k1_pay2_apply (y : S1024x1.Idx) : k1_pay2 (F := Ideal) y = ⊤ := by
  show k0_pay2 (F := Ideal) y = _
  exact k0_pay2_apply y

end Cert.KernelIdeal.Val

end
-- ==== Proof.KI.KValue0.lean ====
/- Region 0: the array it writes. After the region, entry n of the output column is the distance from row n of the region's
   first operand to the nearest row of its second operand: within a row of tiles the scratch column accumulates the minimum
   over the column tiles visited so far, the last tile's point copies it to the output block, and those blocks tile the array. -/
import proofs.«144192_j36369783063040_1_alg».proof.Proof.KI.Pieces0
import proofs.«144192_j36369783063040_1_alg».proof.Proof.Payload
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

namespace Out0

/-! ## From blocks to the two operands -/

/-- The three windows' block indices at a point, decided over the grid: point t = 16·i + j reads primary tile i, other tile j and writes output tile i. -/
theorem idx0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The region's two operands and, at a point, their two tiles, at their literal types. -/
abbrev arr0 (c : Dev nD) : Cert.Spec.Pts 16384 := V c (Pipeline.arrRef spec0 0)
abbrev arr1 (c : Dev nD) : Cert.Spec.Pts 16384 := V c (Pipeline.arrRef spec0 1)
abbrev blk0 (c : Dev nD) (t : Fin cfg0.N) : Cert.Spec.Pts 1024 := iblk0 V c 0 t
abbrev blk1 (c : Dev nD) (t : Fin cfg0.N) : Cert.Spec.Pts 1024 := iblk0 V c 1 t

/-- Row r of the primary tile at point t = 16·i + j is row 1024·i + r of the first operand. -/
theorem blk0_apply (c : Dev nD) (t : Fin cfg0.N) (r : Fin 1024) (k : Fin 3) (i : Fin 16384) (hi : i.val = 1024 * (t.val / 16) + r.val) :
    blk0 V c t (ix2 r k) = arr0 V c (ix2 i k) := by
  show V c (Pipeline.arrRef spec0 0) (((cfg0.win 0).blk t).view.emb (ix2 r k)) = V c (Pipeline.arrRef spec0 0) (ix2 i k)
  obtain ⟨e0, e1, -, -, -, -⟩ := idx0 t
  refine congrArg (V c (Pipeline.arrRef spec0 0)) (funext fun a => Fin.ext ?_)
  match a with
  | ⟨0, _⟩ => show win0_0.index t (0 : Fin 2) * 1024 + 1 * r.val = i.val; rw [e0, hi]; omega
  | ⟨1, _⟩ => show win0_0.index t (1 : Fin 2) * 3 + 1 * k.val = k.val; rw [e1]; omega

/-- Row q of the other tile at point t = 16·i + j is row 1024·j + q of the second operand. -/
theorem blk1_apply (c : Dev nD) (t : Fin cfg0.N) (q : Fin 1024) (k : Fin 3) (m : Fin 16384) (hm : m.val = 1024 * (t.val % 16) + q.val) :
    blk1 V c t (ix2 q k) = arr1 V c (ix2 m k) := by
  show V c (Pipeline.arrRef spec0 1) (((cfg0.win 1).blk t).view.emb (ix2 q k)) = V c (Pipeline.arrRef spec0 1) (ix2 m k)
  obtain ⟨-, -, e0, e1, -, -⟩ := idx0 t
  refine congrArg (V c (Pipeline.arrRef spec0 1)) (funext fun a => Fin.ext ?_)
  match a with
  | ⟨0, _⟩ => show win0_1.index t (0 : Fin 2) * 1024 + 1 * q.val = m.val; rw [e0, hm]; omega
  | ⟨1, _⟩ => show win0_1.index t (1 : Fin 2) * 3 + 1 * k.val = k.val; rw [e1]; omega

/-- The distance between two rows only reads those two rows. -/
theorem dist_congr_rows {N M N' M' : Nat} (p : Cert.Spec.Pts N) (q : Cert.Spec.Pts M) (p' : Cert.Spec.Pts N') (q' : Cert.Spec.Pts M')
    (n : Fin N) (m : Fin M) (n' : Fin N') (m' : Fin M')
    (hp : ∀ k : Fin 3, p (ix2 n k) = p' (ix2 n' k)) (hq : ∀ k : Fin 3, q (ix2 m k) = q' (ix2 m' k)) :
    Cert.Spec.dist p q n m = Cert.Spec.dist p' q' n' m' := by
  unfold Cert.Spec.dist Cert.Spec.nrm2 Cert.Spec.dot3
  rw [hp 0, hp 1, hp 2, hq 0, hq 1, hq 2]

/-- Row r of the primary tile against row q of the other tile, at point t = 16·i + j, is row 1024·i + r of the first operand
    against row 1024·j + q of the second. -/
theorem dist_blocks (c : Dev nD) (t : Fin cfg0.N) (r q : Fin 1024) (i m : Fin 16384)
    (hi : i.val = 1024 * (t.val / 16) + r.val) (hm : m.val = 1024 * (t.val % 16) + q.val) :
    Cert.Spec.dist (blk0 V c t) (blk1 V c t) r q = Cert.Spec.dist (arr0 V c) (arr1 V c) i m :=
  dist_congr_rows (blk0 V c t) (blk1 V c t) (arr0 V c) (arr1 V c) r q i m
    (fun k => blk0_apply V c t r k i hi) (fun k => blk1_apply V c t q k m hm)

/-- The columns below tile j + 1 are those below tile j together with tile j's own 1024. -/
theorem forall_lt_succ_tile (P : Fin 16384 → Prop) (j : ℕ) (hj : j < 16) :
    (∀ m : Fin 16384, m.val < 1024 * (j + 1) → P m)
      ↔ (∀ m : Fin 16384, m.val < 1024 * j → P m) ∧ (∀ (q : Fin 1024) (m : Fin 16384), m.val = 1024 * j + q.val → P m) := by
  constructor
  · intro h
    exact ⟨fun m hm => h m (by omega), fun q m hm => h m (by have := q.isLt; omega)⟩
  · rintro ⟨h1, h2⟩ m hm
    by_cases hlt : m.val < 1024 * j
    · exact h1 m hlt
    · exact h2 ⟨m.val - 1024 * j, by omega⟩ m (by show m.val = 1024 * j + (m.val - 1024 * j); omega)

/-- A lower bound of the tile's row minimum at row r is a lower bound of the distances from row 1024·i + r of the first operand
    to the 1024 rows of tile j of the second. -/
theorem le_tile_iff (c : Dev nD) (t : Fin cfg0.N) (r : Fin 1024) (i : Fin 16384) (hi : i.val = 1024 * (t.val / 16) + r.val) (x : EReal) :
    x ≤ Cert.Spec.nearest (blk0 V c t) (blk1 V c t) r
      ↔ ∀ (q : Fin 1024) (m : Fin 16384), m.val = 1024 * (t.val % 16) + q.val → x ≤ Cert.Spec.dist (arr0 V c) (arr1 V c) i m := by
  rw [Cert.Spec.le_nearest_iff]
  have ht : t.val < 256 := by have := t.isLt; have hN : cfg0.N = 256 := N_0; omega
  constructor
  · intro h q m hm
    rw [← dist_blocks V c t r q i m hi hm]; exact h q
  · intro h q
    rw [dist_blocks V c t r q i ⟨1024 * (t.val % 16) + q.val, by have := q.isLt; omega⟩ hi rfl]
    exact h q _ rfl

/-! ## What each point leaves in the scratch column and in the output block -/

/-- The update of the running-minimum column at row r: the smaller of its old entry and the tile's row minimum. -/
theorem pay_update_apply (x0 x1 : Vec Ideal S1024x3 .f32) (s : Vec Ideal S1024x1 .f32) (r : Fin 1024) :
    k0_pay1 (F := Ideal) (k0_pay3 x0 x1) s (ix2 r (0 : Fin 1))
      = min (s (ix2 r (0 : Fin 1))) (Cert.Spec.nearest (N := 1024) (M := 1024) x0 x1 r) := by
  rw [Cert.KernelIdeal.Val.k0_pay1_apply, Cert.KernelIdeal.Val.k0_pay3_apply]

/-- At a first-tile point the scratch column is reset, so it ends at the tile's row minima. -/
theorem scratch_first (c : Dev nD) (t : Fin cfg0.N) (h0 : t.val % 16 = 0) (h1 : ¬t.val % 16 = 15) (r : Fin 1024) :
    (outsAt0 V c t.val t.isLt).2 (ix2 r (0 : Fin 1)) = Cert.Spec.nearest (blk0 V c t) (blk1 V c t) r := by
  rw [outsAt0_A V c t h0 h1]
  dsimp only
  refine (congrFun (sout0_A_0_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (blk0 V c t) (blk1 V c t)) (ix2 r (0 : Fin 1))).trans ?_
  rw [pay_update_apply, Cert.KernelIdeal.Val.k0_pay2_apply]
  exact min_top_left _

/-- At a middle point the scratch column is updated with the tile's row minima. -/
theorem scratch_middle (c : Dev nD) (t : Fin cfg0.N) (h0 : ¬t.val % 16 = 0) (h1 : ¬t.val % 16 = 15) (r : Fin 1024) :
    (outsAt0 V c t.val t.isLt).2 (ix2 r (0 : Fin 1))
      = min ((outsAt0 V c (t.val - 1) (Nat.lt_of_le_of_lt (Nat.sub_le _ _) t.isLt)).2 (ix2 r (0 : Fin 1)))
          (Cert.Spec.nearest (blk0 V c t) (blk1 V c t) r) := by
  rw [outsAt0_B V c t h0 h1]
  dsimp only
  refine (congrFun (sout0_B_0_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (blk0 V c t) (blk1 V c t) (outsAt0 V c (t.val - 1) (Nat.lt_of_le_of_lt (Nat.sub_le _ _) t.isLt)).2) (ix2 r (0 : Fin 1))).trans ?_
  exact pay_update_apply _ _ _ r

/-- At a last-tile point the scratch column is updated the same way … -/
theorem scratch_last (c : Dev nD) (t : Fin cfg0.N) (h0 : ¬t.val % 16 = 0) (h1 : t.val % 16 = 15) (r : Fin 1024) :
    (outsAt0 V c t.val t.isLt).2 (ix2 r (0 : Fin 1))
      = min ((outsAt0 V c (t.val - 1) (Nat.lt_of_le_of_lt (Nat.sub_le _ _) t.isLt)).2 (ix2 r (0 : Fin 1)))
          (Cert.Spec.nearest (blk0 V c t) (blk1 V c t) r) := by
  rw [outsAt0_C V c t h0 h1]
  dsimp only
  refine (congrFun (sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (blk0 V c t) (blk1 V c t) (outsAt0 V c (t.val - 1) (Nat.lt_of_le_of_lt (Nat.sub_le _ _) t.isLt)).2) (ix2 r (0 : Fin 1))).trans ?_
  exact pay_update_apply _ _ _ r

/-- … and the output block receives that same updated column. -/
theorem out_last (c : Dev nD) (t : Fin cfg0.N) (h0 : ¬t.val % 16 = 0) (h1 : t.val % 16 = 15) (r : Fin 1024) :
    (outsAt0 V c t.val t.isLt).1 (ix2 r (0 : Fin 1)) = (outsAt0 V c t.val t.isLt).2 (ix2 r (0 : Fin 1)) := by
  rw [outsAt0_C V c t h0 h1]
  dsimp only
  refine (congrFun (out0_C_2_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (blk0 V c t) (blk1 V c t) (outsAt0 V c (t.val - 1) (Nat.lt_of_le_of_lt (Nat.sub_le _ _) t.isLt)).2) (ix2 r (0 : Fin 1))).trans ?_
  exact (congrFun (sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (blk0 V c t) (blk1 V c t) (outsAt0 V c (t.val - 1) (Nat.lt_of_le_of_lt (Nat.sub_le _ _) t.isLt)).2) (ix2 r (0 : Fin 1))).symm

/-! ## The running minimum -/

/-- THE INVARIANT. After position n = 16·i + j, entry r of the scratch column is the greatest lower bound of the distances from
    row 1024·i + r of the first operand to the rows of the second operand below 1024·(j + 1); said through its lower bounds, so
    that no arithmetic on infima is needed. -/
theorem scratch_inv (c : Dev nD) : ∀ (n : ℕ) (hn : n < cfg0.N) (r : Fin 1024) (i : Fin 16384), i.val = 1024 * (n / 16) + r.val → ∀ x : EReal,
    (x ≤ (outsAt0 V c n hn).2 (ix2 r (0 : Fin 1))
      ↔ ∀ m : Fin 16384, m.val < 1024 * (n % 16 + 1) → x ≤ Cert.Spec.dist (arr0 V c) (arr1 V c) i m) := by
  intro n
  induction n using Nat.strong_induction_on with
  | _ n ih =>
    intro hn r i hi x
    have hj : n % 16 < 16 := Nat.mod_lt _ (by norm_num)
    rw [forall_lt_succ_tile _ (n % 16) hj]
    by_cases h0 : n % 16 = 0
    · have h1 : ¬n % 16 = 15 := by omega
      rw [show (outsAt0 V c n hn).2 (ix2 r (0 : Fin 1)) = _ from scratch_first V c ⟨n, hn⟩ h0 h1 r, le_tile_iff V c ⟨n, hn⟩ r i hi x]
      constructor
      · intro h; exact ⟨fun m hm => absurd hm (by rw [h0]; omega), h⟩
      · exact fun h => h.2
    · have hprev := ih (n - 1) (by omega) (by omega) r i (by omega) x
      have hstep : (outsAt0 V c n hn).2 (ix2 r (0 : Fin 1))
          = min ((outsAt0 V c (n - 1) (by omega)).2 (ix2 r (0 : Fin 1))) (Cert.Spec.nearest (blk0 V c ⟨n, hn⟩) (blk1 V c ⟨n, hn⟩) r) := by
        by_cases h1 : n % 16 = 15
        · exact scratch_last V c ⟨n, hn⟩ h0 h1 r
        · exact scratch_middle V c ⟨n, hn⟩ h0 h1 r
      rw [hstep, le_min_iff, hprev, le_tile_iff V c ⟨n, hn⟩ r i hi x]
      have e : (n - 1) % 16 + 1 = n % 16 := by omega
      rw [e]

/-- At a last-tile point the output block's entry r is the distance from row 1024·i + r of the first operand to the nearest of
    ALL rows of the second. -/
theorem out_last_eq (c : Dev nD) (t : Fin cfg0.N) (h1 : t.val % 16 = 15) (r : Fin 1024) (i : Fin 16384) (hi : i.val = 1024 * (t.val / 16) + r.val) :
    (outsAt0 V c t.val t.isLt).1 (ix2 r (0 : Fin 1)) = Cert.Spec.nearest (arr0 V c) (arr1 V c) i := by
  have h0 : ¬t.val % 16 = 0 := by omega
  rw [out_last V c t h0 h1 r]
  refine eq_of_forall_le_iff fun x => ?_
  rw [scratch_inv V c t.val t.isLt r i hi x, Cert.Spec.le_nearest_iff]
  constructor
  · intro h m; exact h m (by have := m.isLt; omega)
  · intro h m _; exact h m

/-! ## The output column -/

/-- The same, at an index of the output block. -/
theorem out_read (c : Dev nD) (t : Fin cfg0.N) (h1 : t.val % 16 = 15) (y : S1024x1.Idx) (i : Fin 16384)
    (hi : i.val = 1024 * (t.val / 16) + (y 0).val) :
    (outsAt0 V c t.val t.isLt).1 y = Cert.Spec.nearest (arr0 V c) (arr1 V c) i := by
  obtain ⟨r, z, rfl⟩ : ∃ (r : Fin 1024) (z : Fin 1), y = ix2 r z := ⟨y 0, y 1, eq_ix2 y⟩
  obtain rfl : z = 0 := Subsingleton.elim _ _
  exact out_last_eq V c t h1 r i hi

/-- What the region's output column ends holding: entry n is the distance from row n of the first operand to the nearest row
    of the second. -/
abbrev nearestCol (c : Dev nD) : S16384x1.Idx → EReal := fun y => Cert.Spec.nearest (arr0 V c) (arr1 V c) (y 0)

/-- What a last-tile point writes back is its block of that column: the block of point 16·i + 15 starts at row 1024·i. -/
theorem flushed_eq (c : Dev nD) (t : Fin cfg0.N) (hf : (cfg0.win 2).flush t = true) :
    (dat0 V c).flushed 2 t = ((cfg0.win 2).blk t).view.read (Elt Ideal) (nearestCol V c) := by
  have h1 : t.val % 16 = 15 := (flush0_2 t).mp hf
  obtain ⟨-, -, -, -, e0, -⟩ := idx0 t
  show (cfg0.win 2).cut (grid0.coords t) ((dat0 V c).after 2 t) = _
  rw [after0_2]
  funext j
  rw [View.read_apply, cast_eq]
  refine out_read V c t h1 _ _ ?_
  show win0_2.index t (0 : Fin 2) * 1024 + 1 * (j 0).val = 1024 * (t.val / 16) + (j 0).val
  rw [e0]; omega

/-- An index of the column is in point t's block iff each coordinate is in the block's range on its axis. -/
theorem mem_blk (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- The last-tile points' blocks tile the column: row n lies in the block of point 16·(n / 1024) + 15. -/
theorem cover (i : S16384x1.Idx) : ∃ t : Fin cfg0.N, (cfg0.win 2).flush t = true ∧ i ∈ ((cfg0.win 2).blk t).view.set := by
  have hi0 : (i 0).val < 16384 := idx2_lt0 i
  have hi1 : (i 1).val < 1 := idx2_lt1 i
  have hN : cfg0.N = 256 := N_0
  obtain ⟨t, ht⟩ : ∃ t : Fin cfg0.N, t.val = 16 * ((i 0).val / 1024) + 15 := ⟨⟨16 * ((i 0).val / 1024) + 15, by omega⟩, rfl⟩
  obtain ⟨-, -, -, -, e0, e1⟩ := idx0 t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1 ≤ (i 1).val ∧ (i 1).val < win0_2.index t (1 : Fin 2) * 1 + 1
    rw [e1]; omega

end Out0

theorem nearestOut0 (c : Dev nD) (y : S16384x1.Idx) :
    (dat0 (F := Ideal) V c).arrAt 2 cfg0.N y
      = Cert.Spec.nearest (N := 16384) (M := 16384) (V c (Pipeline.arrRef spec0 0)) (V c (Pipeline.arrRef spec0 1)) (y 0) :=
  congrFun ((dat0 (F := Ideal) V c).arrAt_eq_of_cover 2 (Out0.nearestCol V c) (Out0.flushed_eq V c) Out0.cover) y

end Cert.KernelIdeal.Gen

end
-- ==== Proof.KI.Pieces1.lean ====
/- Region 1: what each control case leaves in the scratch column and in the output block, as explicit terms of the body's
   three stored values: with T the tile's row minima of the two input blocks, a first-tile point leaves update(T, reset) in the
   scratch column, any later point leaves update(T, previous contents), and the last-tile point copies that same column to the
   output block. -/
import proofs.«144192_j36369783063040_1_alg».proof.Proof.KI.Frame1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Every store and load of the body is through the whole-shape rectangle at offsets (0, 0). -/
private theorem zeroOffsets : (![0, 0] : Fin 2 → Nat) = fun _ => 0 := funext fun a => by fin_cases a <;> rfl

theorem sout1_A_0_eq (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i) (x0 x1 : Vec F S1024x3 .f32) :
    sout1_A_0 c i arg2 harg2 arg3 harg3 arg4 harg4 arg5 harg5 hc0 hc1 x0 x1 = k1_pay1 (k1_pay3 x0 x1) (k1_pay2 (F := F)) := by
  -- Two whole-column stores: the reset, then the update of what was read back. The later one decides the column,
  -- and the read-back between them sees exactly the reset.
  unfold sout1_A_0
  rw [View.read_writes_eq_canon _ _ _ (scover1_A_0 c i arg2 harg2 arg3 harg3 arg4 harg4 arg5 harg5 hc0 hc1 x0 x1)]
  unfold kernelRun1_A; dsimp only; sl_unfold_words
  rw [View.canon_cons_unit_zero (S := S1024x1) zeroOffsets, View.readCov_unit_zero (S := S1024x1) _ zeroOffsets]
  simp only [View.readAt_eq_ld, harg2.read_unread, harg3.read_unread, View.ld_unit_zero (S := S1024x3) zeroOffsets]

theorem sout1_B_0_eq (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i) (x0 x1 : Vec F S1024x3 .f32) (xs0 : Vec F S1024x1 .f32) :
    sout1_B_0 c i arg2 harg2 arg3 harg3 arg4 harg4 arg5 harg5 hc0 hc1 x0 x1 xs0 = k1_pay1 (k1_pay3 x0 x1) xs0 := by
  -- One whole-column store: the update of the previous contents, which the load before it reads unchanged.
  unfold sout1_B_0
  rw [View.read_writes_eq_canon _ _ _ (scover1_B_0 c i arg2 harg2 arg3 harg3 arg4 harg4 arg5 harg5 hc0 hc1 x0 x1 xs0)]
  unfold kernelRun1_B; dsimp only; sl_unfold_words
  rw [View.canon_unit_zero (S := S1024x1) zeroOffsets]
  simp only [View.readAt_eq_ld, harg2.read_unread, harg3.read_unread, harg5.read_unread,
    View.ld_unit_zero (S := S1024x3) zeroOffsets, View.ld_unit_zero (S := S1024x1) zeroOffsets]

theorem sout1_C_0_eq (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i) (x0 x1 : Vec F S1024x3 .f32) (xs0 : Vec F S1024x1 .f32) :
    sout1_C_0 c i arg2 harg2 arg3 harg3 arg4 harg4 arg5 harg5 hc0 hc1 x0 x1 xs0 = k1_pay1 (k1_pay3 x0 x1) xs0 := by
  -- As at a middle tile: the copy to the output block that follows does not write the scratch column.
  unfold sout1_C_0
  rw [View.read_writes_eq_canon _ _ _ (scover1_C_0 c i arg2 harg2 arg3 harg3 arg4 harg4 arg5 harg5 hc0 hc1 x0 x1 xs0)]
  unfold kernelRun1_C; dsimp only; sl_unfold_words
  rw [View.canon_unit_zero (S := S1024x1) zeroOffsets]
  simp only [View.readAt_eq_ld, harg2.read_unread, harg3.read_unread, harg5.read_unread,
    View.ld_unit_zero (S := S1024x3) zeroOffsets, View.ld_unit_zero (S := S1024x1) zeroOffsets]

theorem out1_C_2_eq (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i) (x0 x1 : Vec F S1024x3 .f32) (xs0 : Vec F S1024x1 .f32) :
    out1_C_2 c i arg2 harg2 arg3 harg3 arg4 harg4 arg5 harg5 hc0 hc1 x0 x1 xs0 = k1_pay1 (k1_pay3 x0 x1) xs0 := by
  -- One whole-block store of the scratch column as read back after its update: the same value as the column's.
  unfold out1_C_2
  rw [View.read_writes_eq_canon _ _ _ (cover1_C_2 c i arg2 harg2 arg3 harg3 arg4 harg4 arg5 harg5 hc0 hc1 x0 x1 xs0)]
  unfold kernelRun1_C; dsimp only; sl_unfold_words
  rw [View.canon_unit_zero (S := S1024x1) zeroOffsets]
  simp only [View.readAt_eq_ld, harg2.read_unread, harg3.read_unread, harg5.read_unread,
    View.ld_unit_zero (S := S1024x3) zeroOffsets, View.ld_unit_zero (S := S1024x1) zeroOffsets,
    View.readCov_unit_zero (S := S1024x1) _ zeroOffsets]

end Cert.KernelIdeal.Gen

end
-- ==== Proof.KI.KValue1.lean ====
/- Region 1: the array it writes. After the region, entry n of the output column is the distance from row n of the region's
   first operand to the nearest row of its second operand: within a row of tiles the scratch column accumulates the minimum
   over the column tiles visited so far, the last tile's point copies it to the output block, and those blocks tile the array. -/
import proofs.«144192_j36369783063040_1_alg».proof.Proof.KI.Pieces1
import proofs.«144192_j36369783063040_1_alg».proof.Proof.Payload
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

namespace Out1

/-! ## From blocks to the two operands -/

/-- The three windows' block indices at a point, decided over the grid: point t = 16·i + j reads primary tile i, other tile j and writes output tile i. -/
theorem idx0 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

/-- The region's two operands and, at a point, their two tiles, at their literal types. -/
abbrev arr0 (c : Dev nD) : Cert.Spec.Pts 16384 := V c (Pipeline.arrRef spec1 0)
abbrev arr1 (c : Dev nD) : Cert.Spec.Pts 16384 := V c (Pipeline.arrRef spec1 1)
abbrev blk0 (c : Dev nD) (t : Fin cfg1.N) : Cert.Spec.Pts 1024 := iblk1 V c 0 t
abbrev blk1 (c : Dev nD) (t : Fin cfg1.N) : Cert.Spec.Pts 1024 := iblk1 V c 1 t

/-- Row r of the primary tile at point t = 16·i + j is row 1024·i + r of the first operand. -/
theorem blk0_apply (c : Dev nD) (t : Fin cfg1.N) (r : Fin 1024) (k : Fin 3) (i : Fin 16384) (hi : i.val = 1024 * (t.val / 16) + r.val) :
    blk0 V c t (ix2 r k) = arr0 V c (ix2 i k) := by
  show V c (Pipeline.arrRef spec1 0) (((cfg1.win 0).blk t).view.emb (ix2 r k)) = V c (Pipeline.arrRef spec1 0) (ix2 i k)
  obtain ⟨e0, e1, -, -, -, -⟩ := idx0 t
  refine congrArg (V c (Pipeline.arrRef spec1 0)) (funext fun a => Fin.ext ?_)
  match a with
  | ⟨0, _⟩ => show win1_0.index t (0 : Fin 2) * 1024 + 1 * r.val = i.val; rw [e0, hi]; omega
  | ⟨1, _⟩ => show win1_0.index t (1 : Fin 2) * 3 + 1 * k.val = k.val; rw [e1]; omega

/-- Row q of the other tile at point t = 16·i + j is row 1024·j + q of the second operand. -/
theorem blk1_apply (c : Dev nD) (t : Fin cfg1.N) (q : Fin 1024) (k : Fin 3) (m : Fin 16384) (hm : m.val = 1024 * (t.val % 16) + q.val) :
    blk1 V c t (ix2 q k) = arr1 V c (ix2 m k) := by
  show V c (Pipeline.arrRef spec1 1) (((cfg1.win 1).blk t).view.emb (ix2 q k)) = V c (Pipeline.arrRef spec1 1) (ix2 m k)
  obtain ⟨-, -, e0, e1, -, -⟩ := idx0 t
  refine congrArg (V c (Pipeline.arrRef spec1 1)) (funext fun a => Fin.ext ?_)
  match a with
  | ⟨0, _⟩ => show win1_1.index t (0 : Fin 2) * 1024 + 1 * q.val = m.val; rw [e0, hm]; omega
  | ⟨1, _⟩ => show win1_1.index t (1 : Fin 2) * 3 + 1 * k.val = k.val; rw [e1]; omega

/-- The distance between two rows only reads those two rows. -/
theorem dist_congr_rows {N M N' M' : Nat} (p : Cert.Spec.Pts N) (q : Cert.Spec.Pts M) (p' : Cert.Spec.Pts N') (q' : Cert.Spec.Pts M')
    (n : Fin N) (m : Fin M) (n' : Fin N') (m' : Fin M')
    (hp : ∀ k : Fin 3, p (ix2 n k) = p' (ix2 n' k)) (hq : ∀ k : Fin 3, q (ix2 m k) = q' (ix2 m' k)) :
    Cert.Spec.dist p q n m = Cert.Spec.dist p' q' n' m' := by
  unfold Cert.Spec.dist Cert.Spec.nrm2 Cert.Spec.dot3
  rw [hp 0, hp 1, hp 2, hq 0, hq 1, hq 2]

/-- Row r of the primary tile against row q of the other tile, at point t = 16·i + j, is row 1024·i + r of the first operand
    against row 1024·j + q of the second. -/
theorem dist_blocks (c : Dev nD) (t : Fin cfg1.N) (r q : Fin 1024) (i m : Fin 16384)
    (hi : i.val = 1024 * (t.val / 16) + r.val) (hm : m.val = 1024 * (t.val % 16) + q.val) :
    Cert.Spec.dist (blk0 V c t) (blk1 V c t) r q = Cert.Spec.dist (arr0 V c) (arr1 V c) i m :=
  dist_congr_rows (blk0 V c t) (blk1 V c t) (arr0 V c) (arr1 V c) r q i m
    (fun k => blk0_apply V c t r k i hi) (fun k => blk1_apply V c t q k m hm)

/-- The columns below tile j + 1 are those below tile j together with tile j's own 1024. -/
theorem forall_lt_succ_tile (P : Fin 16384 → Prop) (j : ℕ) (hj : j < 16) :
    (∀ m : Fin 16384, m.val < 1024 * (j + 1) → P m)
      ↔ (∀ m : Fin 16384, m.val < 1024 * j → P m) ∧ (∀ (q : Fin 1024) (m : Fin 16384), m.val = 1024 * j + q.val → P m) := by
  constructor
  · intro h
    exact ⟨fun m hm => h m (by omega), fun q m hm => h m (by have := q.isLt; omega)⟩
  · rintro ⟨h1, h2⟩ m hm
    by_cases hlt : m.val < 1024 * j
    · exact h1 m hlt
    · exact h2 ⟨m.val - 1024 * j, by omega⟩ m (by show m.val = 1024 * j + (m.val - 1024 * j); omega)

/-- A lower bound of the tile's row minimum at row r is a lower bound of the distances from row 1024·i + r of the first operand
    to the 1024 rows of tile j of the second. -/
theorem le_tile_iff (c : Dev nD) (t : Fin cfg1.N) (r : Fin 1024) (i : Fin 16384) (hi : i.val = 1024 * (t.val / 16) + r.val) (x : EReal) :
    x ≤ Cert.Spec.nearest (blk0 V c t) (blk1 V c t) r
      ↔ ∀ (q : Fin 1024) (m : Fin 16384), m.val = 1024 * (t.val % 16) + q.val → x ≤ Cert.Spec.dist (arr0 V c) (arr1 V c) i m := by
  rw [Cert.Spec.le_nearest_iff]
  have ht : t.val < 256 := by have := t.isLt; have hN : cfg1.N = 256 := N_1; omega
  constructor
  · intro h q m hm
    rw [← dist_blocks V c t r q i m hi hm]; exact h q
  · intro h q
    rw [dist_blocks V c t r q i ⟨1024 * (t.val % 16) + q.val, by have := q.isLt; omega⟩ hi rfl]
    exact h q _ rfl

/-! ## What each point leaves in the scratch column and in the output block -/

/-- The update of the running-minimum column at row r: the smaller of its old entry and the tile's row minimum. -/
theorem pay_update_apply (x0 x1 : Vec Ideal S1024x3 .f32) (s : Vec Ideal S1024x1 .f32) (r : Fin 1024) :
    k1_pay1 (F := Ideal) (k1_pay3 x0 x1) s (ix2 r (0 : Fin 1))
      = min (s (ix2 r (0 : Fin 1))) (Cert.Spec.nearest (N := 1024) (M := 1024) x0 x1 r) := by
  rw [Cert.KernelIdeal.Val.k1_pay1_apply, Cert.KernelIdeal.Val.k1_pay3_apply]

/-- At a first-tile point the scratch column is reset, so it ends at the tile's row minima. -/
theorem scratch_first (c : Dev nD) (t : Fin cfg1.N) (h0 : t.val % 16 = 0) (h1 : ¬t.val % 16 = 15) (r : Fin 1024) :
    (outsAt1 V c t.val t.isLt).2 (ix2 r (0 : Fin 1)) = Cert.Spec.nearest (blk0 V c t) (blk1 V c t) r := by
  rw [outsAt1_A V c t h0 h1]
  dsimp only
  refine (congrFun (sout1_A_0_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (blk0 V c t) (blk1 V c t)) (ix2 r (0 : Fin 1))).trans ?_
  rw [pay_update_apply, Cert.KernelIdeal.Val.k1_pay2_apply]
  exact min_top_left _

/-- At a middle point the scratch column is updated with the tile's row minima. -/
theorem scratch_middle (c : Dev nD) (t : Fin cfg1.N) (h0 : ¬t.val % 16 = 0) (h1 : ¬t.val % 16 = 15) (r : Fin 1024) :
    (outsAt1 V c t.val t.isLt).2 (ix2 r (0 : Fin 1))
      = min ((outsAt1 V c (t.val - 1) (Nat.lt_of_le_of_lt (Nat.sub_le _ _) t.isLt)).2 (ix2 r (0 : Fin 1)))
          (Cert.Spec.nearest (blk0 V c t) (blk1 V c t) r) := by
  rw [outsAt1_B V c t h0 h1]
  dsimp only
  refine (congrFun (sout1_B_0_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (blk0 V c t) (blk1 V c t) (outsAt1 V c (t.val - 1) (Nat.lt_of_le_of_lt (Nat.sub_le _ _) t.isLt)).2) (ix2 r (0 : Fin 1))).trans ?_
  exact pay_update_apply _ _ _ r

/-- At a last-tile point the scratch column is updated the same way … -/
theorem scratch_last (c : Dev nD) (t : Fin cfg1.N) (h0 : ¬t.val % 16 = 0) (h1 : t.val % 16 = 15) (r : Fin 1024) :
    (outsAt1 V c t.val t.isLt).2 (ix2 r (0 : Fin 1))
      = min ((outsAt1 V c (t.val - 1) (Nat.lt_of_le_of_lt (Nat.sub_le _ _) t.isLt)).2 (ix2 r (0 : Fin 1)))
          (Cert.Spec.nearest (blk0 V c t) (blk1 V c t) r) := by
  rw [outsAt1_C V c t h0 h1]
  dsimp only
  refine (congrFun (sout1_C_0_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (blk0 V c t) (blk1 V c t) (outsAt1 V c (t.val - 1) (Nat.lt_of_le_of_lt (Nat.sub_le _ _) t.isLt)).2) (ix2 r (0 : Fin 1))).trans ?_
  exact pay_update_apply _ _ _ r

/-- … and the output block receives that same updated column. -/
theorem out_last (c : Dev nD) (t : Fin cfg1.N) (h0 : ¬t.val % 16 = 0) (h1 : t.val % 16 = 15) (r : Fin 1024) :
    (outsAt1 V c t.val t.isLt).1 (ix2 r (0 : Fin 1)) = (outsAt1 V c t.val t.isLt).2 (ix2 r (0 : Fin 1)) := by
  rw [outsAt1_C V c t h0 h1]
  dsimp only
  refine (congrFun (out1_C_2_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (blk0 V c t) (blk1 V c t) (outsAt1 V c (t.val - 1) (Nat.lt_of_le_of_lt (Nat.sub_le _ _) t.isLt)).2) (ix2 r (0 : Fin 1))).trans ?_
  exact (congrFun (sout1_C_0_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (blk0 V c t) (blk1 V c t) (outsAt1 V c (t.val - 1) (Nat.lt_of_le_of_lt (Nat.sub_le _ _) t.isLt)).2) (ix2 r (0 : Fin 1))).symm

/-! ## The running minimum -/

/-- THE INVARIANT. After position n = 16·i + j, entry r of the scratch column is the greatest lower bound of the distances from
    row 1024·i + r of the first operand to the rows of the second operand below 1024·(j + 1); said through its lower bounds, so
    that no arithmetic on infima is needed. -/
theorem scratch_inv (c : Dev nD) : ∀ (n : ℕ) (hn : n < cfg1.N) (r : Fin 1024) (i : Fin 16384), i.val = 1024 * (n / 16) + r.val → ∀ x : EReal,
    (x ≤ (outsAt1 V c n hn).2 (ix2 r (0 : Fin 1))
      ↔ ∀ m : Fin 16384, m.val < 1024 * (n % 16 + 1) → x ≤ Cert.Spec.dist (arr0 V c) (arr1 V c) i m) := by
  intro n
  induction n using Nat.strong_induction_on with
  | _ n ih =>
    intro hn r i hi x
    have hj : n % 16 < 16 := Nat.mod_lt _ (by norm_num)
    rw [forall_lt_succ_tile _ (n % 16) hj]
    by_cases h0 : n % 16 = 0
    · have h1 : ¬n % 16 = 15 := by omega
      rw [show (outsAt1 V c n hn).2 (ix2 r (0 : Fin 1)) = _ from scratch_first V c ⟨n, hn⟩ h0 h1 r, le_tile_iff V c ⟨n, hn⟩ r i hi x]
      constructor
      · intro h; exact ⟨fun m hm => absurd hm (by rw [h0]; omega), h⟩
      · exact fun h => h.2
    · have hprev := ih (n - 1) (by omega) (by omega) r i (by omega) x
      have hstep : (outsAt1 V c n hn).2 (ix2 r (0 : Fin 1))
          = min ((outsAt1 V c (n - 1) (by omega)).2 (ix2 r (0 : Fin 1))) (Cert.Spec.nearest (blk0 V c ⟨n, hn⟩) (blk1 V c ⟨n, hn⟩) r) := by
        by_cases h1 : n % 16 = 15
        · exact scratch_last V c ⟨n, hn⟩ h0 h1 r
        · exact scratch_middle V c ⟨n, hn⟩ h0 h1 r
      rw [hstep, le_min_iff, hprev, le_tile_iff V c ⟨n, hn⟩ r i hi x]
      have e : (n - 1) % 16 + 1 = n % 16 := by omega
      rw [e]

/-- At a last-tile point the output block's entry r is the distance from row 1024·i + r of the first operand to the nearest of
    ALL rows of the second. -/
theorem out_last_eq (c : Dev nD) (t : Fin cfg1.N) (h1 : t.val % 16 = 15) (r : Fin 1024) (i : Fin 16384) (hi : i.val = 1024 * (t.val / 16) + r.val) :
    (outsAt1 V c t.val t.isLt).1 (ix2 r (0 : Fin 1)) = Cert.Spec.nearest (arr0 V c) (arr1 V c) i := by
  have h0 : ¬t.val % 16 = 0 := by omega
  rw [out_last V c t h0 h1 r]
  refine eq_of_forall_le_iff fun x => ?_
  rw [scratch_inv V c t.val t.isLt r i hi x, Cert.Spec.le_nearest_iff]
  constructor
  · intro h m; exact h m (by have := m.isLt; omega)
  · intro h m _; exact h m

/-! ## The output column -/

/-- The same, at an index of the output block. -/
theorem out_read (c : Dev nD) (t : Fin cfg1.N) (h1 : t.val % 16 = 15) (y : S1024x1.Idx) (i : Fin 16384)
    (hi : i.val = 1024 * (t.val / 16) + (y 0).val) :
    (outsAt1 V c t.val t.isLt).1 y = Cert.Spec.nearest (arr0 V c) (arr1 V c) i := by
  obtain ⟨r, z, rfl⟩ : ∃ (r : Fin 1024) (z : Fin 1), y = ix2 r z := ⟨y 0, y 1, eq_ix2 y⟩
  obtain rfl : z = 0 := Subsingleton.elim _ _
  exact out_last_eq V c t h1 r i hi

/-- What the region's output column ends holding: entry n is the distance from row n of the first operand to the nearest row
    of the second. -/
abbrev nearestCol (c : Dev nD) : S16384x1.Idx → EReal := fun y => Cert.Spec.nearest (arr0 V c) (arr1 V c) (y 0)

/-- What a last-tile point writes back is its block of that column: the block of point 16·i + 15 starts at row 1024·i. -/
theorem flushed_eq (c : Dev nD) (t : Fin cfg1.N) (hf : (cfg1.win 2).flush t = true) :
    (dat1 V c).flushed 2 t = ((cfg1.win 2).blk t).view.read (Elt Ideal) (nearestCol V c) := by
  have h1 : t.val % 16 = 15 := (flush1_2 t).mp hf
  obtain ⟨-, -, -, -, e0, -⟩ := idx0 t
  show (cfg1.win 2).cut (grid1.coords t) ((dat1 V c).after 2 t) = _
  rw [after1_2]
  funext j
  rw [View.read_apply, cast_eq]
  refine out_read V c t h1 _ _ ?_
  show win1_2.index t (0 : Fin 2) * 1024 + 1 * (j 0).val = 1024 * (t.val / 16) + (j 0).val
  rw [e0]; omega

/-- An index of the column is in point t's block iff each coordinate is in the block's range on its axis. -/
theorem mem_blk (t : Fin cfg1.N) (i : S16384x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v2).slice (win1_2.rect t)).set ↔ _
  rw [View.set_slice_whole, Rect.mem_set_unit]
  exact Iff.rfl

/-- The last-tile points' blocks tile the column: row n lies in the block of point 16·(n / 1024) + 15. -/
theorem cover (i : S16384x1.Idx) : ∃ t : Fin cfg1.N, (cfg1.win 2).flush t = true ∧ i ∈ ((cfg1.win 2).blk t).view.set := by
  have hi0 : (i 0).val < 16384 := idx2_lt0 i
  have hi1 : (i 1).val < 1 := idx2_lt1 i
  have hN : cfg1.N = 256 := N_1
  obtain ⟨t, ht⟩ : ∃ t : Fin cfg1.N, t.val = 16 * ((i 0).val / 1024) + 15 := ⟨⟨16 * ((i 0).val / 1024) + 15, by omega⟩, rfl⟩
  obtain ⟨-, -, -, -, e0, e1⟩ := idx0 t
  refine ⟨t, (flush1_2 t).mpr (by omega), ?_⟩
  rw [mem_blk]
  intro a
  match a with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 1 ≤ (i 1).val ∧ (i 1).val < win1_2.index t (1 : Fin 2) * 1 + 1
    rw [e1]; omega

end Out1

theorem nearestOut1 (c : Dev nD) (y : S16384x1.Idx) :
    (dat1 (F := Ideal) V c).arrAt 2 cfg1.N y
      = Cert.Spec.nearest (N := 16384) (M := 16384) (V c (Pipeline.arrRef spec1 0)) (V c (Pipeline.arrRef spec1 1)) (y 0) :=
  congrFun ((dat1 (F := Ideal) V c).arrAt_eq_of_cover 2 (Out1.nearestCol V c) (Out1.flushed_eq V c) Out1.cover) y

end Cert.KernelIdeal.Gen

end
-- ==== Proof.KI.Tail.lean ====
/- The idealized kernel program's result. Its last host stretch joins the two regions' output columns (each flattened from
   [16384,1] to [16384]) end to end, sums the 32768 entries from 0 and divides by 32768; region 0's column holds, entry n, the distance
   from point n of the first argument to the nearest point of the second, and region 1's the same with the arguments exchanged. -/
import proofs.«144192_j36369783063040_1_alg».proof.Proof.KI.Segs
import proofs.«144192_j36369783063040_1_alg».proof.Proof.KI.KValue0
import proofs.«144192_j36369783063040_1_alg».proof.Proof.KI.KValue1
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

open Idealize.ShloMosaic.ValueIdx Idealize.ShloMosaic.StableHlo

/-- The mean of two columns laid end to end: what both programs do last. -/
def meanOfTwo (x y : FVec Ideal S16384 .f32) : FVec Ideal S_ .f32 :=
  Host.divf (Host.reduceAdd (concatenate S32768 0 [⟨S16384, x⟩, ⟨S16384, y⟩] Facts₀.concatenates_S16384_S16384_S32768_d0) (constant S_ .f32 0x00000000#32) Facts₀.reducesTo_S32768_S_d0 Facts₀.h_S_) (constant S_ .f32 0x47000000#32)

/-- A column [16384,1] flattened to [16384], read at an index. -/
theorem flatten_apply (x : FVec Ideal S16384x1 .f32) (i : S16384.Idx) :
    shapeCast S16384 x Facts₀.shapeCasts_S16384x1_S16384 i = x (ix2 (i 0) (0 : Fin 1)) := by
  obtain ⟨r, rfl⟩ : ∃ r : Fin 16384, i = ix1 r := ⟨i 0, eq_ix1 i⟩
  exact Cert.KernelIdeal.Val.shapeCast_a1_a_apply x _ r

/-- The program's result as the mean of the two regions' flattened output columns. -/
theorem W4_main_v6 (c : Dev nD) :
    W4 m c (Proc.devRef .tc main_v6)
      = meanOfTwo (shapeCast S16384 (W1 m c (Proc.devRef .tc main_v0)) Facts₀.shapeCasts_S16384x1_S16384)
          (shapeCast S16384 (W3 m c (Proc.devRef .tc main_v2)) Facts₀.shapeCasts_S16384x1_S16384) := by
  have e : W3 m c (Proc.devRef .tc main_v1) = shapeCast S16384 (W1 m c (Proc.devRef .tc main_v0)) Facts₀.shapeCasts_S16384x1_S16384 := by
    rw [W3_of_ne m c main_v1 (by decide)]
    show StableHlo.after hostOps1 (W1 m c) (Proc.devRef .tc main_v1) = _
    after_results
    rfl
  show StableHlo.after hostOps2 (W3 m c) (Proc.devRef .tc main_v6) = _
  after_results
  rw [e]
  rfl

/-- The program's result in terms of the specification. -/
theorem result_eq (c : Dev nD) :
    W4 m c (Proc.devRef .tc main_v6)
      = meanOfTwo (fun i => Cert.Spec.nearest (N := 16384) (M := 16384) (m ((c : Thread nD τ).loc main_arg0)) (m ((c : Thread nD τ).loc main_arg1)) (i 0))
          (fun i => Cert.Spec.nearest (N := 16384) (M := 16384) (m ((c : Thread nD τ).loc main_arg1)) (m ((c : Thread nD τ).loc main_arg0)) (i 0)) := by
  have h1 : shapeCast S16384 (W1 m c (Proc.devRef .tc main_v0)) Facts₀.shapeCasts_S16384x1_S16384
      = fun i => Cert.Spec.nearest (N := 16384) (M := 16384) (m ((c : Thread nD τ).loc main_arg0)) (m ((c : Thread nD τ).loc main_arg1)) (i 0) := by
    funext i
    rw [flatten_apply]
    show W1 m c (Proc.devRef .tc (Pipeline.arrRef spec0 2)) (ix2 (i 0) (0 : Fin 1)) = _
    rw [W1_arr m c 2]
    exact nearestOut0 (E0 m) c (ix2 (i 0) (0 : Fin 1))
  have h2 : shapeCast S16384 (W3 m c (Proc.devRef .tc main_v2)) Facts₀.shapeCasts_S16384x1_S16384
      = fun i => Cert.Spec.nearest (N := 16384) (M := 16384) (m ((c : Thread nD τ).loc main_arg1)) (m ((c : Thread nD τ).loc main_arg0)) (i 0) := by
    funext i
    rw [flatten_apply]
    show W3 m c (Proc.devRef .tc (Pipeline.arrRef spec1 2)) (ix2 (i 0) (0 : Fin 1)) = _
    rw [W3_arr m c 2]
    refine (nearestOut1 (E2 m) c (ix2 (i 0) (0 : Fin 1))).trans ?_
    show Cert.Spec.nearest (N := 16384) (M := 16384) (E2 m c main_arg1) (E2 m c main_arg0) (i 0) = _
    rw [E2_main_arg1 m c, E2_main_arg0 m c]
  rw [W4_main_v6, h1, h2]

end Cert.KernelIdeal.Gen

end
-- ==== Proof.RefSide.lean ====
/- The reference program's two minima, read index by index over the extended reals.
   The reference forms, for point sets a and b of 16384 rows of 3 coordinates, the matrix
     d[n, m] = sqrt (max ((|a_n|² + |b_m|²) − 2·⟨a_n, b_m⟩) 0),
   then the minimum of each row of d (over m) and the minimum of each column of d (over n), both from +∞.
   Entry (n, m) of d is Spec.dist a b n m: the two squared norms are sums of three squares from 0 and the inner
   product is a sum of three products, each in the order (x + y) + z the specification spells. A minimum over one
   axis from +∞ is the infimum over that axis's coordinates, since min is commutative and associative and +∞ is its
   unit: the row minimum at n is Spec.nearest a b n, and the column minimum at m is the infimum over n of
   dist a b n m, which by the symmetry of the distance is Spec.nearest b a m. -/
import proofs.«144192_j36369783063040_1_alg».proof.Proof.Gen.ReferenceIdeal.Read
import proofs.«144192_j36369783063040_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-- Entry (n, m) of the distance matrix is the specification's distance between row n of a and row m of b.
    Each broadcast reads its operand at the row or the column of (n, m); the two sums of squares start from the
    zero pattern, which is the real 0, so each is (x² + y²) + z²; the contraction over the coordinate axis is
    (x·x' + y·y') + z·z'. The constants 2 and the clamp's 0 stay the patterns the specification names. -/
theorem val_main_v15_eq_dist (a b : (⟨S16384x3, .f32⟩ : BufTy).Contents (Elt Ideal)) (n m : Fin 16384) :
    Cert.ReferenceIdeal.Read.val_main_v15 (F := Ideal) a b (ix2 n m) = Cert.Spec.dist (N := 16384) (M := 16384) a b n m := by
  have e1 : ∀ k : Fin 3, idx_main_v1 (idx_main_v4 (idx_main_v6 (ix2 n m))) k = ix2 n k := fun k =>
    funext fun c => Fin.ext (by match c with | ⟨0, _⟩ => rfl | ⟨1, _⟩ => rfl)
  have e3 : ∀ k : Fin 3, idx_main_v3 (idx_main_v5 (idx_main_v7 (ix2 n m))) k = ix2 m k := fun k =>
    funext fun c => Fin.ext (by match c with | ⟨0, _⟩ => rfl | ⟨1, _⟩ => rfl)
  have el : ∀ k : Fin 3, lidx_main_v9 (ix2 n m) k = ix2 n k := fun k =>
    funext fun c => Fin.ext (by match c with | ⟨0, _⟩ => rfl | ⟨1, _⟩ => rfl)
  have er : ∀ k : Fin 3, ridx_main_v9 (ix2 n m) k = ix2 m k := fun k =>
    funext fun c => Fin.ext (by match c with | ⟨0, _⟩ => rfl | ⟨1, _⟩ => rfl)
  rw [val_main_v15_apply, val_main_v14_apply, val_main_v12_apply, val_main_v13_apply, val_main_cst_2_apply,
    val_main_v8_apply, val_main_v11_apply, val_main_v6_apply, val_main_v7_apply, val_main_v4_apply, val_main_v5_apply,
    val_main_v1_apply, val_main_v3_apply, val_main_v10_apply, val_main_cst_1_apply, val_main_v9_apply,
    val_main_cst_apply, val_main_cst_0_apply]
  simp only [e1, e3, el, er, Fin.sum_univ_three, val_main_v0_apply, val_main_v2_apply]
  unfold Cert.Spec.dist Cert.Spec.nrm2 Cert.Spec.dot3
  simp only [Ideal.hostUnary_sqrt_def, Ideal.maximumf_def, Ideal.subf_def, Ideal.addf_def, Ideal.mulf_def,
    Ideal.ofBits_def, Ideal.ofBits_zero_f32, zero_add]

/-- The minimum of row n of the distance matrix, taken from +∞, is the distance from row n of a to the nearest row
    of b. The indices of the matrix that lie over n are (n, k) for k a column; min commutes and associates, so the
    minimum over them in any order is the fold of min from ⊤ over the columns, which is the infimum. -/
theorem val_main_v16_eq (a b : (⟨S16384x3, .f32⟩ : BufTy).Contents (Elt Ideal)) (i : S16384.Idx) :
    Cert.ReferenceIdeal.Read.val_main_v16 (F := Ideal) a b i = Cert.Spec.nearest (N := 16384) (M := 16384) a b (i 0) := by
  have h : S16384x16384.Reduces [1] S16384 := by decide
  have hl : ∀ k : Fin 16384, h.lift i k = ix2 (i 0) k := fun k =>
    funext fun c => Fin.ext (by match c with | ⟨0, _⟩ => rfl | ⟨1, _⟩ => rfl)
  have hf : (val_main_v15 (F := Ideal) a b ∘ h.lift i)
      = fun k : Fin 16384 => Cert.Spec.dist (N := 16384) (M := 16384) a b (i 0) k :=
    funext fun k => (congrArg (val_main_v15 (F := Ideal) a b) (hl k)).trans (val_main_v15_eq_dist a b (i 0) k)
  have htop : val_main_cst_3 (F := Ideal) (Shape.Idx.first h_S_) = (⊤ : EReal) := by
    rw [val_main_cst_3_apply]; simp [Ideal.ofBits, Ideal.ieee]
  unfold val_main_v16
  rw [Host.reduce_eq_fold_single FloatOps.minimumf _ _ reducesTo_S16384x16384_S16384_d1 h h_S_ i, hf, htop]
  rfl

/-- The minimum of column m of the distance matrix, taken from +∞, is the distance from row m of b to the nearest
    row of a. The indices that lie over m are (k, m) for k a row, so the minimum is the infimum over k of
    dist a b k m; the distance is symmetric, dist a b k m = dist b a m k, and that infimum is nearest b a m. -/
theorem val_main_v17_eq (a b : (⟨S16384x3, .f32⟩ : BufTy).Contents (Elt Ideal)) (i : S16384.Idx) :
    Cert.ReferenceIdeal.Read.val_main_v17 (F := Ideal) a b i = Cert.Spec.nearest (N := 16384) (M := 16384) b a (i 0) := by
  have h : S16384x16384.Reduces [0] S16384 := by decide
  have hl : ∀ k : Fin 16384, h.lift i k = ix2 k (i 0) := fun k =>
    funext fun c => Fin.ext (by match c with | ⟨0, _⟩ => rfl | ⟨1, _⟩ => rfl)
  have hf : (val_main_v15 (F := Ideal) a b ∘ h.lift i)
      = fun k : Fin 16384 => Cert.Spec.dist (N := 16384) (M := 16384) a b k (i 0) :=
    funext fun k => (congrArg (val_main_v15 (F := Ideal) a b) (hl k)).trans (val_main_v15_eq_dist a b k (i 0))
  have htop : val_main_cst_4 (F := Ideal) (Shape.Idx.first h_S_) = (⊤ : EReal) := by
    rw [val_main_cst_4_apply]; simp [Ideal.ofBits, Ideal.ieee]
  unfold val_main_v17
  rw [Host.reduce_eq_fold_single FloatOps.minimumf _ _ reducesTo_S16384x16384_S16384_d0 h h_S_ i, hf, htop]
  exact Cert.Spec.nearest_swap (N := 16384) (M := 16384) a b (i 0)

/-- The program's result is the mean of the two vectors of minima joined end to end: their concatenation summed
    from 0 and divided by 32768, the two vectors appearing only as the row minima and the column minima above. -/
theorem val_main_v20_tail (a b : (⟨S16384x3, .f32⟩ : BufTy).Contents (Elt Ideal)) :
    Cert.ReferenceIdeal.Read.val_main_v20 (F := Ideal) a b
      = Host.divf (F := Ideal) (Host.reduceAdd (concatenate S32768 0 [⟨S16384, Cert.ReferenceIdeal.Read.val_main_v16 (F := Ideal) a b⟩, ⟨S16384, Cert.ReferenceIdeal.Read.val_main_v17 (F := Ideal) a b⟩] Cert.ReferenceIdeal.Facts₀.concatenates_S16384_S16384_S32768_d0) (constant S_ .f32 0x00000000#32) Cert.ReferenceIdeal.Facts₀.reducesTo_S32768_S_d0 Cert.ReferenceIdeal.Facts₀.h_S_) (constant S_ .f32 0x47000000#32) :=
  rfl

end Cert.ReferenceIdeal.RefValue

end
-- ==== Proof.lean ====
/- The certificate of the pairwise nearest-point kernel against its jnp reference.
   The kernel computes, for two sets a, b of 16384 points in 3-space, the distance from every point of a to the nearest point of b
   and from every point of b to the nearest point of a — each by a 16 × 16 sweep of 1024 × 1024 distance tiles with a running row
   minimum kept in a scratch column — and returns the mean of the 32768 distances. The reference forms the whole 16384 × 16384
   distance matrix, takes its row minima and its column minima, and returns the same mean. At the ideal instance both minima are
   the infimum of one distance function (Proof/Spec.lean); the column minima of dist a b are the row minima of dist b a by the
   symmetry of the distance, which needs only the commutativity of + and · on the extended reals, so the precondition is never opened.
   The three frames come from the programs' runs with the result dropped; the ideal pass rewrote nothing. -/
import proofs.«144192_j36369783063040_1_alg».proof.Defs
import proofs.«144192_j36369783063040_1_alg».proof.Proof.Gen.Kernel
import proofs.«144192_j36369783063040_1_alg».proof.Proof.Gen.KernelIdeal
import proofs.«144192_j36369783063040_1_alg».proof.Proof.Gen.ReferenceIdeal
import proofs.«144192_j36369783063040_1_alg».proof.Proof.Gen.Pre_finite_inputs
import proofs.«144192_j36369783063040_1_alg».proof.Proof.Gen.ReferenceIdeal.Run
import proofs.«144192_j36369783063040_1_alg».proof.Proof.Gen.ReferenceIdeal.Read
import proofs.«144192_j36369783063040_1_alg».proof.Proof.K.Segs
import proofs.«144192_j36369783063040_1_alg».proof.Proof.KI.Tail
import proofs.«144192_j36369783063040_1_alg».proof.Proof.RefSide
import Idealize.ShloMosaic.Adequacy
import Idealize.ShloMosaic.Init

noncomputable section

namespace Cert.Proof

open Idealize.ShloMosaic Idealize.ShloMosaic.TcCoe Idealize.SL.Sem

/-- The word-level program runs to the end and leaves its two arguments as launched. -/
theorem frame_k : Cert.frame_Kernel := fun m ρ _ =>
  (θ_run Cert.Kernel.defs _ _).mono (fun _ h c => (h c).2) (Cert.Kernel.Gen.run_all (F := Bits) m ρ)

/-- So does its idealization. -/
theorem frame_ki : Cert.frame_KernelIdeal := fun m ρ _ =>
  (θ_run Cert.KernelIdeal.defs _ _).mono (fun _ h c => (h c).2) (Cert.KernelIdeal.Gen.run_all (F := Ideal) m ρ)

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The reference's result, in terms of the specification: the mean of the row minima of dist a b and of dist b a laid end to end. -/
theorem reference_result (a b : (⟨Cert.ReferenceIdeal.S16384x3, .f32⟩ : BufTy).Contents (Elt Ideal)) :
    Cert.ReferenceIdeal.Read.val_main_v20 (F := Ideal) a b
      = Cert.KernelIdeal.Gen.meanOfTwo (fun i => Cert.Spec.nearest (N := 16384) (M := 16384) a b (i 0))
          (fun i => Cert.Spec.nearest (N := 16384) (M := 16384) b a (i 0)) := by
  rw [Cert.ReferenceIdeal.RefValue.val_main_v20_tail,
    show Cert.ReferenceIdeal.Read.val_main_v16 (F := Ideal) a b = (fun i => Cert.Spec.nearest (N := 16384) (M := 16384) a b (i 0)) from
      funext (Cert.ReferenceIdeal.RefValue.val_main_v16_eq a b),
    show Cert.ReferenceIdeal.Read.val_main_v17 (F := Ideal) a b = (fun i => Cert.Spec.nearest (N := 16384) (M := 16384) b a (i 0)) from
      funext (Cert.ReferenceIdeal.RefValue.val_main_v17_eq a b)]
  rfl

/-- From memories agreeing on the arguments, both idealized programs end with the same mean. -/
theorem algebraic : Cert.algebraic_KernelIdeal_ReferenceIdeal := by
  intro m ρ m' ρ' _ hagree
  refine ⟨fun c => Cert.KernelIdeal.Gen.W4 m c (Proc.devRef .tc Cert.KernelIdeal.main_v6), Cert.KernelIdeal.Gen.run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v20_eq _ _).trans ?_
  rw [reference_result]
  exact (Cert.KernelIdeal.Gen.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
